-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S_ : Shape := ⟨0, ![]⟩

class Facts : Prop where
  bcast_S_S8x16384x2 : S_.BroadcastsInDim S8x16384x2 (![] : Fin 0 → Fin S8x16384x2.rank)
  reducesTo_S8x16384x2_S_d0_1_2 : S8x16384x2.ReducesTo [0, 1, 2] S_
  h_S_ : 0 < S_.numel
  bcast_S_S8x16384x256 : S_.BroadcastsInDim S8x16384x256 (![] : Fin 0 → Fin S8x16384x256.rank)
  reducesTo_S8x16384x256_S_d0_1_2 : S8x16384x256.ReducesTo [0, 1, 2] S_
  bcast_S_S258 : S_.BroadcastsInDim S258 (![] : Fin 0 → Fin S258.rank)
  reducesTo_S258_S_d0 : S258.ReducesTo [0] S_
  bcast_S_S512x258 : S_.BroadcastsInDim S512x258 (![] : Fin 0 → Fin S512x258.rank)
  reducesTo_S512x258_S_d0_1 : S512x258.ReducesTo [0, 1] S_

variable [Facts]

def fn_part1 {F : FTy → Type} [FloatOps F] (main_arg5 : FVec F S512x258 .f32) (main_v13 : IVec S_ 1) (main_v16 : IVec S258 1) : IVec S_ 1 :=
  let main_c_5 : IVec S_ 1 := constantI S_ 1 1#1
  let main_v17 : IVec S_ 1 := (fun x v => Host.reduce IntOp.andi x v reducesTo_S258_S_d0 h_S_) main_v16 main_c_5
  let main_v18 : IVec S_ 1 := andi main_v13 main_v17
  let main_v19 : FVec F S512x258 .f32 := Host.absf main_arg5
  let main_cst_6 : FVec F S_ .f32 := constant S_ .f32 0x7F800000#32
  let main_v20 : FVec F S512x258 .f32 := broadcastInDim S512x258 ![] bcast_S_S512x258 main_cst_6
  let main_v21 : IVec S512x258 1 := cmpf .olt main_v19 main_v20
  let main_c_7 : IVec S_ 1 := constantI S_ 1 1#1
  let main_v22 : IVec S_ 1 := (fun x v => Host.reduce IntOp.andi x v reducesTo_S512x258_S_d0_1 h_S_) main_v21 main_c_7
  let main_v23 : IVec S_ 1 := andi main_v18 main_v22
  main_v23

def fn {F : FTy → Type} [FloatOps F] (main_arg0 : FVec F S8x16384x2 .f32) (main_arg1 : FVec F S8x16384x256 .f32) (main_arg2 : IVec S8x16384 32) (main_arg3 : FVec F S258 .f32) (main_arg4 : FVec F S258 .f32) (main_arg5 : FVec F S512x258 .f32) : IVec S_ 1 :=
  let main_v0 : FVec F S8x16384x2 .f32 := Host.absf main_arg0
  let main_cst : FVec F S_ .f32 := constant S_ .f32 0x7F800000#32
  let main_v1 : FVec F S8x16384x2 .f32 := broadcastInDim S8x16384x2 ![] bcast_S_S8x16384x2 main_cst
  let main_v2 : IVec S8x16384x2 1 := cmpf .olt main_v0 main_v1
  let main_c : IVec S_ 1 := constantI S_ 1 1#1
  let main_v3 : IVec S_ 1 := (fun x v => Host.reduce IntOp.andi x v reducesTo_S8x16384x2_S_d0_1_2 h_S_) main_v2 main_c
  let main_v4 : FVec F S8x16384x256 .f32 := Host.absf main_arg1
  let main_cst_0 : FVec F S_ .f32 := constant S_ .f32 0x7F800000#32
  let main_v5 : FVec F S8x16384x256 .f32 := broadcastInDim S8x16384x256 ![] bcast_S_S8x16384x256 main_cst_0
  let main_v6 : IVec S8x16384x256 1 := cmpf .olt main_v4 main_v5
  let main_c_1 : IVec S_ 1 := constantI S_ 1 1#1
  let main_v7 : IVec S_ 1 := (fun x v => Host.reduce IntOp.andi x v reducesTo_S8x16384x256_S_d0_1_2 h_S_) main_v6 main_c_1
  let main_v8 : IVec S_ 1 := andi main_v3 main_v7
  let main_v9 : FVec F S258 .f32 := Host.absf main_arg3
  let main_cst_2 : FVec F S_ .f32 := constant S_ .f32 0x7F800000#32
  let main_v10 : FVec F S258 .f32 := broadcastInDim S258 ![] bcast_S_S258 main_cst_2
  let main_v11 : IVec S258 1 := cmpf .olt main_v9 main_v10
  let main_c_3 : IVec S_ 1 := constantI S_ 1 1#1
  let main_v12 : IVec S_ 1 := (fun x v => Host.reduce IntOp.andi x v reducesTo_S258_S_d0 h_S_) main_v11 main_c_3
  let main_v13 : IVec S_ 1 := andi main_v8 main_v12
  let main_v14 : FVec F S258 .f32 := Host.absf main_arg4
  let main_cst_4 : FVec F S_ .f32 := constant S_ .f32 0x7F800000#32
  let main_v15 : FVec F S258 .f32 := broadcastInDim S258 ![] bcast_S_S258 main_cst_4
  let main_v16 : IVec S258 1 := cmpf .olt main_v14 main_v15
  fn_part1 (F := F) main_arg5 main_v13 main_v16
-- ==== Kernel.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S131072x2 : Shape := ⟨2, ![131072, 2]⟩
abbrev S_ : Shape := ⟨0, ![]⟩
abbrev S2 : Shape := ⟨1, ![2]⟩
abbrev S1x1x2 : Shape := ⟨3, ![1, 1, 2]⟩
abbrev S8 : Shape := ⟨1, ![8]⟩
abbrev S8x1 : Shape := ⟨2, ![8, 1]⟩
abbrev S131072 : Shape := ⟨1, ![131072]⟩
abbrev S32768 : Shape := ⟨1, ![32768]⟩
abbrev S131072x1 : Shape := ⟨2, ![131072, 1]⟩
abbrev S8x4096 : Shape := ⟨2, ![8, 4096]⟩
abbrev S32768x2 : Shape := ⟨2, ![32768, 2]⟩
abbrev S8x4096x2 : Shape := ⟨3, ![8, 4096, 2]⟩
abbrev S8x4096x1 : Shape := ⟨3, ![8, 4096, 1]⟩
abbrev S8x16384x1 : Shape := ⟨3, ![8, 16384, 1]⟩
abbrev S8x16384x2x1 : Shape := ⟨4, ![8, 16384, 2, 1]⟩
abbrev S1 : Shape := ⟨1, ![1]⟩
abbrev S1x1x1x1 : Shape := ⟨4, ![1, 1, 1, 1]⟩
abbrev S8x16384x258 : Shape := ⟨3, ![8, 16384, 258]⟩
abbrev S1x258 : Shape := ⟨2, ![1, 258]⟩
abbrev S258x512 : Shape := ⟨2, ![258, 512]⟩
abbrev S8x16384x512 : Shape := ⟨3, ![8, 16384, 512]⟩
abbrev S1x4096x258 : Shape := ⟨3, ![1, 4096, 258]⟩
abbrev S1x4096x512 : Shape := ⟨3, ![1, 4096, 512]⟩
abbrev S4096x258 : Shape := ⟨2, ![4096, 258]⟩
abbrev S4096 : Shape := ⟨1, ![4096]⟩
abbrev S4096x1 : Shape := ⟨2, ![4096, 1]⟩
abbrev S4096x512 : Shape := ⟨2, ![4096, 512]⟩
abbrev S131072x512 : Shape := ⟨2, ![131072, 512]⟩
abbrev S32768x512 : Shape := ⟨2, ![32768, 512]⟩
abbrev S8x4096x512 : Shape := ⟨3, ![8, 4096, 512]⟩

abbrev nBuf : Space → Nat
  | .hbm => 89
  | .vmem => 7
  | .smem => 0
  | _ => 0

abbrev bufTy : (tb : Table) → Fin (tcTables nBuf tb) → BufTy
  | .hbm, ⟨0, _⟩ => ⟨S8x16384x2, .f32⟩
  | .hbm, ⟨1, _⟩ => ⟨S8x16384x256, .f32⟩
  | .hbm, ⟨2, _⟩ => ⟨S8x16384, .i32⟩
  | .hbm, ⟨3, _⟩ => ⟨S258, .f32⟩
  | .hbm, ⟨4, _⟩ => ⟨S258, .f32⟩
  | .hbm, ⟨5, _⟩ => ⟨S512x258, .f32⟩
  | .hbm, ⟨6, _⟩ => ⟨S131072x2, .f32⟩
  | .hbm, ⟨7, _⟩ => ⟨S_, .f32⟩
  | .hbm, ⟨8, _⟩ => ⟨S2, .f32⟩
  | .hbm, ⟨9, _⟩ => ⟨S1x1x2, .f32⟩
  | .hbm, ⟨10, _⟩ => ⟨S8x16384x2, .f32⟩
  | .hbm, ⟨11, _⟩ => ⟨S8x16384x2, .f32⟩
  | .hbm, ⟨12, _⟩ => ⟨S8, .i32⟩
  | .hbm, ⟨13, _⟩ => ⟨S8x1, .i32⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x16384, .i32⟩
  | .hbm, ⟨18, _⟩ => ⟨S8x16384, .i32⟩
  | .hbm, ⟨19, _⟩ => ⟨S131072, .i32⟩
  | .hbm, ⟨20, _⟩ => ⟨S_, .f32⟩
  | .hbm, ⟨21, _⟩ => ⟨S131072, .f32⟩
  | .hbm, ⟨22, _⟩ => ⟨S_, .f32⟩
  | .hbm, ⟨23, _⟩ => ⟨S32768, .f32⟩
  | .hbm, ⟨24, _⟩ => ⟨S131072x1, .i32⟩
  | .hbm, ⟨25, _⟩ => ⟨S32768, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S131072x2, .f32⟩
  | .hbm, ⟨31, _⟩ => ⟨S_, .f32⟩
  | .hbm, ⟨32, _⟩ => ⟨S32768x2, .f32⟩
  | .hbm, ⟨33, _⟩ => ⟨S131072x1, .i32⟩
  | .hbm, ⟨34, _⟩ => ⟨S32768x2, .f32⟩
  | .hbm, ⟨35, _⟩ => ⟨S8x4096x2, .f32⟩
  | .hbm, ⟨36, _⟩ => ⟨S8x4096x1, .f32⟩
  | .hbm, ⟨37, _⟩ => ⟨S8x4096x2, .f32⟩
  | .hbm, ⟨38, _⟩ => ⟨S8x4096x2, .f32⟩
  | .hbm, ⟨39, _⟩ => ⟨S8x16384x1, .i32⟩
  | .hbm, ⟨40, _⟩ => ⟨S8x16384x2, .i32⟩
  | .hbm, ⟨41, _⟩ => ⟨S_, .i32⟩
  | .hbm, ⟨42, _⟩ => ⟨S8x16384x2, .i32⟩
  | .hbm, ⟨43, _⟩ => ⟨S8x16384x2, .i1⟩
  | .hbm, ⟨44, _⟩ => ⟨S_, .i32⟩
  | .hbm, ⟨45, _⟩ => ⟨S8x16384x2, .i32⟩
  | .hbm, ⟨46, _⟩ => ⟨S8x16384x2, .i32⟩
  | .hbm, ⟨47, _⟩ => ⟨S8x16384x2, .i32⟩
  | .hbm, ⟨48, _⟩ => ⟨S8x16384x2x1, .i32⟩
  | .hbm, ⟨49, _⟩ => ⟨S1, .i32⟩
  | .hbm, ⟨50, _⟩ => ⟨S_, .i32⟩
  | .hbm, ⟨51, _⟩ => ⟨S8x16384x2x1, .i32⟩
  | .hbm, ⟨52, _⟩ => ⟨S8x16384x2x1, .i1⟩
  | .hbm, ⟨53, _⟩ => ⟨S1x1x1x1, .i32⟩
  | .hbm, ⟨54, _⟩ => ⟨S8x16384x2x1, .i32⟩
  | .hbm, ⟨55, _⟩ => ⟨S8x16384x2x1, .i1⟩
  | .hbm, ⟨56, _⟩ => ⟨S8x16384x2x1, .i1⟩
  | .hbm, ⟨57, _⟩ => ⟨S_, .i1⟩
  | .hbm, ⟨58, _⟩ => ⟨S8x16384x2, .i1⟩
  | .hbm, ⟨59, _⟩ => ⟨S8x16384x2, .f32⟩
  | .hbm, ⟨60, _⟩ => ⟨S_, .f32⟩
  | .hbm, ⟨61, _⟩ => ⟨S8x16384x2, .f32⟩
  | .hbm, ⟨62, _⟩ => ⟨S8x16384x2, .f32⟩
  | .hbm, ⟨63, _⟩ => ⟨S8x16384x2, .f32⟩
  | .hbm, ⟨64, _⟩ => ⟨S8x16384x258, .f32⟩
  | .hbm, ⟨65, _⟩ => ⟨S1x258, .f32⟩
  | .hbm, ⟨66, _⟩ => ⟨S1x258, .f32⟩
  | .hbm, ⟨67, _⟩ => ⟨S258x512, .f32⟩
  | .hbm, ⟨68, _⟩ => ⟨S8x16384x512, .f32⟩
  | .hbm, ⟨69, _⟩ => ⟨S131072x512, .f32⟩
  | .hbm, ⟨70, _⟩ => ⟨S_, .f32⟩
  | .hbm, ⟨71, _⟩ => ⟨S32768x512, .f32⟩
  | .hbm, ⟨72, _⟩ => ⟨S131072x1, .i32⟩
  | .hbm, ⟨73, _⟩ => ⟨S32768x512, .f32⟩
  | .hbm, ⟨74, _⟩ => ⟨S8x4096x512, .f32⟩
  | .hbm, ⟨75, _⟩ => ⟨S8x4096x1, .f32⟩
  | .hbm, ⟨76, _⟩ => ⟨S8x4096x512, .f32⟩
  | .hbm, ⟨77, _⟩ => ⟨S8x4096x512, .f32⟩
  | .hbm, ⟨78, _⟩ => ⟨S_, .f32⟩
  | .hbm, ⟨79, _⟩ => ⟨S8x4096, .f32⟩
  | .hbm, ⟨80, _⟩ => ⟨S8x4096, .i1⟩
  | .hbm, ⟨81, _⟩ => ⟨S8x4096, .f32⟩
  | .hbm, ⟨82, _⟩ => ⟨S8x4096x1, .f32⟩
  | .hbm, ⟨83, _⟩ => ⟨S8x4096x512, .f32⟩
  | .hbm, ⟨84, _⟩ => ⟨S8x4096x512, .f32⟩
  | .hbm, ⟨85, _⟩ => ⟨S8x4096x1, .f32⟩
  | .hbm, ⟨86, _⟩ => ⟨S8x4096x2, .f32⟩
  | .hbm, ⟨87, _⟩ => ⟨S8x4096x2, .f32⟩
  | .hbm, ⟨88, _⟩ => ⟨S8x4096x1, .f32⟩
  | .local _ .vmem, ⟨0, _⟩ => ⟨S1x4096x258, .f32⟩
  | .local _ .vmem, ⟨1, _⟩ => ⟨S1x4096x258, .f32⟩
  | .local _ .vmem, ⟨2, _⟩ => ⟨S1x258, .f32⟩
  | .local _ .vmem, ⟨3, _⟩ => ⟨S1x258, .f32⟩
  | .local _ .vmem, ⟨4, _⟩ => ⟨S258x512, .f32⟩
  | .local _ .vmem, ⟨5, _⟩ => ⟨S1x4096x512, .f32⟩
  | .local _ .vmem, ⟨6, _⟩ => ⟨S1x4096x512, .f32⟩
  | _, _ => ⟨S8x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x258 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x258 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S258x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x16384x2_S131072x2 : S8x16384x2.ShapeCasts S131072x2
  reducesTo_S131072x2_S2_d0 : S131072x2.ReducesTo [0] S2
  h_S_ : 0 < S_.numel
  bcast_S2_S1x1x2_2 : S2.BroadcastsInDim S1x1x2 (![2] : Fin 1 → Fin S1x1x2.rank)
  bcast_S1x1x2_S8x16384x2_0_1_2 : S1x1x2.BroadcastsInDim S8x16384x2 (![0, 1, 2] : Fin 3 → Fin S8x16384x2.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  shapeCasts_S8x16384_S131072 : S8x16384.ShapeCasts S131072
  bcast_S_S131072 : S_.BroadcastsInDim S131072 (![] : Fin 0 → Fin S131072.rank)
  bcast_S_S32768 : S_.BroadcastsInDim S32768 (![] : Fin 0 → Fin S32768.rank)
  bcast_S131072_S131072x1_0 : S131072.BroadcastsInDim S131072x1 (![0] : Fin 1 → Fin S131072x1.rank)
  shapeCasts_S32768_S8x4096 : S32768.ShapeCasts S8x4096
  bcast_S_S8x4096 : S_.BroadcastsInDim S8x4096 (![] : Fin 0 → Fin S8x4096.rank)
  bcast_S_S32768x2 : S_.BroadcastsInDim S32768x2 (![] : Fin 0 → Fin S32768x2.rank)
  shapeCasts_S32768x2_S8x4096x2 : S32768x2.ShapeCasts S8x4096x2
  bcast_S8x4096_S8x4096x1_0_1 : S8x4096.BroadcastsInDim S8x4096x1 (![0, 1] : Fin 2 → Fin S8x4096x1.rank)
  bcast_S8x4096x1_S8x4096x2_0_1_2 : S8x4096x1.BroadcastsInDim S8x4096x2 (![0, 1, 2] : Fin 3 → Fin S8x4096x2.rank)
  bcast_S8x16384_S8x16384x1_0_1 : S8x16384.BroadcastsInDim S8x16384x1 (![0, 1] : Fin 2 → Fin S8x16384x1.rank)
  bcast_S8x16384x1_S8x16384x2_0_1_2 : S8x16384x1.BroadcastsInDim S8x16384x2 (![0, 1, 2] : Fin 3 → Fin S8x16384x2.rank)
  bcast_S_S8x16384x2 : S_.BroadcastsInDim S8x16384x2 (![] : Fin 0 → Fin S8x16384x2.rank)
  shapeCasts_S8x16384x2_S8x16384x2x1 : S8x16384x2.ShapeCasts S8x16384x2x1
  bcast_S_S8x16384x2x1 : S_.BroadcastsInDim S8x16384x2x1 (![] : Fin 0 → Fin S8x16384x2x1.rank)
  bcast_S1_S1x1x1x1_3 : S1.BroadcastsInDim S1x1x1x1 (![3] : Fin 1 → Fin S1x1x1x1.rank)
  bcast_S1x1x1x1_S8x16384x2x1_0_1_2_3 : S1x1x1x1.BroadcastsInDim S8x16384x2x1 (![0, 1, 2, 3] : Fin 4 → Fin S8x16384x2x1.rank)
  reducesTo_S8x16384x2x1_S8x16384x2_d3 : S8x16384x2x1.ReducesTo [3] S8x16384x2
  concatenates_S8x16384x256_S8x16384x2_S8x16384x258_d2 : Shape.Concatenates [S8x16384x256, S8x16384x2] S8x16384x258 2
  shapeCasts_S258_S1x258 : S258.ShapeCasts S1x258
  transposes_S512x258_S258x512_1_0 : S512x258.Transposes [1, 0] S258x512
  inb_S1x4096x258_S1x4096x258_0_0_0 : ∀ a, (![0, 0, 0] : Fin 3 → Nat) a + S1x4096x258.size a ≤ S1x4096x258.size a
  h_S1x4096x258 : 0 < S1x4096x258.numel
  shapeCasts_S1x4096x258_S4096x258 : S1x4096x258.ShapeCasts S4096x258
  reduces_S4096x258_S4096 : S4096x258.Reduces [1] S4096
  shapeCasts_S4096_S4096x1 : S4096.ShapeCasts S4096x1
  broadcasts_S4096x1_S4096x258 : S4096x1.Broadcasts S4096x258
  inb_S1x258_S1x258_0_0 : ∀ a, (![0, 0] : Fin 2 → Nat) a + S1x258.size a ≤ S1x258.size a
  h_S1x258 : 0 < S1x258.numel
  shapeCasts_S1x258_S1x258 : S1x258.ShapeCasts S1x258
  broadcasts_S1x258_S4096x258 : S1x258.Broadcasts S4096x258
  bitsLt_bf16_f32 : FTy.bits .bf16 < FTy.bits .f32
  inb_S258x512_S258x512_0_0 : ∀ a, (![0, 0] : Fin 2 → Nat) a + S258x512.size a ≤ S258x512.size a
  h_S258x512 : 0 < S258x512.numel
  shapeCasts_S258x512_S258x512 : S258x512.ShapeCasts S258x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  shapeCasts_S8x16384x512_S131072x512 : S8x16384x512.ShapeCasts S131072x512
  bcast_S_S32768x512 : S_.BroadcastsInDim S32768x512 (![] : Fin 0 → Fin S32768x512.rank)
  shapeCasts_S32768x512_S8x4096x512 : S32768x512.ShapeCasts S8x4096x512
  bcast_S8x4096x1_S8x4096x512_0_1_2 : S8x4096x1.BroadcastsInDim S8x4096x512 (![0, 1, 2] : Fin 3 → Fin S8x4096x512.rank)
  scatter_S32768_S131072x1_S131072_n_0_0_1_wf : ScatterDims.WF S32768 S131072x1 S131072 [] [0] [0] 1
  scatter_S32768x2_S131072x1_S131072x2_1_0_0_1_wf : ScatterDims.WF S32768x2 S131072x1 S131072x2 [1] [0] [0] 1
  gather_S8x4096x2_S8x16384x2x1_S8x16384x2_n_1_02_02_1_3_111_wf : GatherDims.WF S8x4096x2 S8x16384x2x1 S8x16384x2 [] [1] [0, 2] [1] [0, 2] 3 ![1, 1, 1]
  dot_S4096x258_S258x512_S4096x512_1_0_0_1_n_n_wf : DotDims.WF S4096x258 S258x512 S4096x512 [1] [0] [0] [1] [] []
  scatter_S32768x512_S131072x1_S131072x512_1_0_0_1_wf : ScatterDims.WF S32768x512 S131072x1 S131072x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x258.size a ≤ S8x16384x258.size a
  hwx0_0 : ∀ i : grid0.Coords, EltTy.bits .f32 = 32 ∨ (Rect.block (s := S8x16384x258) S1x4096x258.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x258.size a ≤ S1x258.size a
  hwx0_1 : ∀ i : grid0.Coords, EltTy.bits .f32 = 32 ∨ (Rect.block (s := S1x258) S1x258.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x258.size a ≤ S1x258.size a
  hwx0_2 : ∀ i : grid0.Coords, EltTy.bits .f32 = 32 ∨ (Rect.block (s := S1x258) S1x258.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S258x512.size a ≤ S258x512.size a
  hwx0_3 : ∀ i : grid0.Coords, EltTy.bits .f32 = 32 ∨ (Rect.block (s := S258x512) S258x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x512.size a ≤ S8x16384x512.size a
  hwx0_4 : ∀ i : grid0.Coords, EltTy.bits .f32 = 32 ∨ (Rect.block (s := S8x16384x512) S1x4096x512.size (cc0_transform_4 i) (hinb0_4 i)).WholeWords (EltTy.packing .f32)

variable [Facts₀]

def scatter_S32768_S131072x1_S131072_n_0_0_1 : ScatterDims S32768 S131072x1 S131072 where
  updateWindowDims := []
  insertedWindowDims := [0]
  scatterDimsToOperandDims := [0]
  indexVectorDim := 1
  wf := scatter_S32768_S131072x1_S131072_n_0_0_1_wf
def scatter_S32768x2_S131072x1_S131072x2_1_0_0_1 : ScatterDims S32768x2 S131072x1 S131072x2 where
  updateWindowDims := [1]
  insertedWindowDims := [0]
  scatterDimsToOperandDims := [0]
  indexVectorDim := 1
  wf := scatter_S32768x2_S131072x1_S131072x2_1_0_0_1_wf
def gather_S8x4096x2_S8x16384x2x1_S8x16384x2_n_1_02_02_1_3_111 : GatherDims S8x4096x2 S8x16384x2x1 S8x16384x2 where
  offsetDims := []
  collapsedSliceDims := [1]
  operandBatchingDims := [0, 2]
  startIndicesBatchingDims := [0, 2]
  startIndexMap := [1]
  indexVectorDim := 3
  sliceSizes := ![1, 1, 1]
  wf := gather_S8x4096x2_S8x16384x2x1_S8x16384x2_n_1_02_02_1_3_111_wf
def dot_S4096x258_S258x512_S4096x512_1_0_0_1_n_n : DotDims S4096x258 S258x512 S4096x512 where
  lhsContracting := [1]
  rhsContracting := [0]
  lhsNonContracting := [0]
  rhsNonContracting := [1]
  lhsBatch := []
  rhsBatch := []
  wf := dot_S4096x258_S258x512_S4096x512_1_0_0_1_n_n_wf
def scatter_S32768x512_S131072x1_S131072x512_1_0_0_1 : ScatterDims S32768x512 S131072x1 S131072x512 where
  updateWindowDims := [1]
  insertedWindowDims := [0]
  scatterDimsToOperandDims := [0]
  indexVectorDim := 1
  wf := scatter_S32768x512_S131072x1_S131072x512_1_0_0_1_wf

abbrev win0_0 : Pipeline.Window sig grid0 :=
  Pipeline.Window.ofSpec (Memref.whole main_v31) S1x4096x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x258.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x258.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S258x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16384x2 : Shape := ⟨3, ![8, 16384, 2]⟩
abbrev S8x16384x256 : Shape := ⟨3, ![8, 16384, 256]⟩
abbrev S8x16384 : Shape := ⟨2, ![8, 16384]⟩
abbrev S258 : Shape := ⟨1, ![258]⟩
abbrev S512x258 : Shape := ⟨2, ![512, 258]⟩
abbrev S131072x2 : Shape := ⟨2, ![131072, 2]⟩
abbrev S_ : Shape := ⟨0, ![]⟩
abbrev S2 : Shape := ⟨1, ![2]⟩
abbrev S1x1x2 : Shape := ⟨3, ![1, 1, 2]⟩
abbrev S8 : Shape := ⟨1, ![8]⟩
abbrev S8x1 : Shape := ⟨2, ![8, 1]⟩
abbrev S131072 : Shape := ⟨1, ![131072]⟩
abbrev S32768 : Shape := ⟨1, ![32768]⟩
abbrev S131072x1 : Shape := ⟨2, ![131072, 1]⟩
abbrev S8x4096 : Shape := ⟨2, ![8, 4096]⟩
abbrev S32768x2 : Shape := ⟨2, ![32768, 2]⟩
abbrev S8x4096x2 : Shape := ⟨3, ![8, 4096, 2]⟩
abbrev S8x4096x1 : Shape := ⟨3, ![8, 4096, 1]⟩
abbrev S8x16384x1 : Shape := ⟨3, ![8, 16384, 1]⟩
abbrev S8x16384x2x1 : Shape := ⟨4, ![8, 16384, 2, 1]⟩
abbrev S1 : Shape := ⟨1, ![1]⟩
abbrev S1x1x1x1 : Shape := ⟨4, ![1, 1, 1, 1]⟩
abbrev S8x16384x258 : Shape := ⟨3, ![8, 16384, 258]⟩
abbrev S1x1x258 : Shape := ⟨3, ![1, 1, 258]⟩
abbrev S8x16384x512 : Shape := ⟨3, ![8, 16384, 512]⟩
abbrev S131072x512 : Shape := ⟨2, ![131072, 512]⟩
abbrev S32768x512 : Shape := ⟨2, ![32768, 512]⟩
abbrev S8x4096x512 : Shape := ⟨3, ![8, 4096, 512]⟩

abbrev nBuf : Space → Nat
  | .hbm => 115
  | .vmem => 0
  | .smem => 0
  | _ => 0

abbrev bufTy : (tb : Table) → Fin (tcTables nBuf tb) → BufTy
  | .hbm, ⟨0, _⟩ => ⟨S8x16384x2, .f32⟩
  | .hbm, ⟨1, _⟩ => ⟨S8x16384x256, .f32⟩
  | .hbm, ⟨2, _⟩ => ⟨S8x16384, .i32⟩
  | .hbm, ⟨3, _⟩ => ⟨S258, .f32⟩
  | .hbm, ⟨4, _⟩ => ⟨S258, .f32⟩
  | .hbm, ⟨5, _⟩ => ⟨S512x258, .f32⟩
  | .hbm, ⟨6, _⟩ => ⟨S131072x2, .f32⟩
  | .hbm, ⟨7, _⟩ => ⟨S_, .f32⟩
  | .hbm, ⟨8, _⟩ => ⟨S2, .f32⟩
  | .hbm, ⟨9, _⟩ => ⟨S1x1x2, .f32⟩
  | .hbm, ⟨10, _⟩ => ⟨S8x16384x2, .f32⟩
  | .hbm, ⟨11, _⟩ => ⟨S8x16384x2, .f32⟩
  | .hbm, ⟨12, _⟩ => ⟨S8, .i32⟩
  | .hbm, ⟨13, _⟩ => ⟨S8x1, .i32⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x16384, .i32⟩
  | .hbm, ⟨18, _⟩ => ⟨S8x16384, .i32⟩
  | .hbm, ⟨19, _⟩ => ⟨S131072, .i32⟩
  | .hbm, ⟨20, _⟩ => ⟨S_, .f32⟩
  | .hbm, ⟨21, _⟩ => ⟨S131072, .f32⟩
  | .hbm, ⟨22, _⟩ => ⟨S_, .f32⟩
  | .hbm, ⟨23, _⟩ => ⟨S32768, .f32⟩
  | .hbm, ⟨24, _⟩ => ⟨S131072x1, .i32⟩
  | .hbm, ⟨25, _⟩ => ⟨S32768, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S131072x2, .f32⟩
  | .hbm, ⟨31, _⟩ => ⟨S_, .f32⟩
  | .hbm, ⟨32, _⟩ => ⟨S32768x2, .f32⟩
  | .hbm, ⟨33, _⟩ => ⟨S131072x1, .i32⟩
  | .hbm, ⟨34, _⟩ => ⟨S32768x2, .f32⟩
  | .hbm, ⟨35, _⟩ => ⟨S8x4096x2, .f32⟩
  | .hbm, ⟨36, _⟩ => ⟨S8x4096x1, .f32⟩
  | .hbm, ⟨37, _⟩ => ⟨S8x4096x2, .f32⟩
  | .hbm, ⟨38, _⟩ => ⟨S8x4096x2, .f32⟩
  | .hbm, ⟨39, _⟩ => ⟨S8x16384x1, .i32⟩
  | .hbm, ⟨40, _⟩ => ⟨S8x16384x2, .i32⟩
  | .hbm, ⟨41, _⟩ => ⟨S_, .i32⟩
  | .hbm, ⟨42, _⟩ => ⟨S8x16384x2, .i32⟩
  | .hbm, ⟨43, _⟩ => ⟨S8x16384x2, .i1⟩
  | .hbm, ⟨44, _⟩ => ⟨S_, .i32⟩
  | .hbm, ⟨45, _⟩ => ⟨S8x16384x2, .i32⟩
  | .hbm, ⟨46, _⟩ => ⟨S8x16384x2, .i32⟩
  | .hbm, ⟨47, _⟩ => ⟨S8x16384x2, .i32⟩
  | .hbm, ⟨48, _⟩ => ⟨S8x16384x2x1, .i32⟩
  | .hbm, ⟨49, _⟩ => ⟨S1, .i32⟩
  | .hbm, ⟨50, _⟩ => ⟨S_, .i32⟩
  | .hbm, ⟨51, _⟩ => ⟨S8x16384x2x1, .i32⟩
  | .hbm, ⟨52, _⟩ => ⟨S8x16384x2x1, .i1⟩
  | .hbm, ⟨53, _⟩ => ⟨S1x1x1x1, .i32⟩
  | .hbm, ⟨54, _⟩ => ⟨S8x16384x2x1, .i32⟩
  | .hbm, ⟨55, _⟩ => ⟨S8x16384x2x1, .i1⟩
  | .hbm, ⟨56, _⟩ => ⟨S8x16384x2x1, .i1⟩
  | .hbm, ⟨57, _⟩ => ⟨S_, .i1⟩
  | .hbm, ⟨58, _⟩ => ⟨S8x16384x2, .i1⟩
  | .hbm, ⟨59, _⟩ => ⟨S8x16384x2, .f32⟩
  | .hbm, ⟨60, _⟩ => ⟨S_, .f32⟩
  | .hbm, ⟨61, _⟩ => ⟨S8x16384x2, .f32⟩
  | .hbm, ⟨62, _⟩ => ⟨S8x16384x2, .f32⟩
  | .hbm, ⟨63, _⟩ => ⟨S8x16384x2, .f32⟩
  | .hbm, ⟨64, _⟩ => ⟨S8x16384x258, .f32⟩
  | .hbm, ⟨65, _⟩ => ⟨S_, .f32⟩
  | .hbm, ⟨66, _⟩ => ⟨S8x16384, .f32⟩
  | .hbm, ⟨67, _⟩ => ⟨S8x16384x1, .f32⟩
  | .hbm, ⟨68, _⟩ => ⟨S_, .f32⟩
  | .hbm, ⟨69, _⟩ => ⟨S8x16384x1, .f32⟩
  | .hbm, ⟨70, _⟩ => ⟨S8x16384x1, .f32⟩
  | .hbm, ⟨71, _⟩ => ⟨S8x16384x258, .f32⟩
  | .hbm, ⟨72, _⟩ => ⟨S8x16384x258, .f32⟩
  | .hbm, ⟨73, _⟩ => ⟨S8x16384x258, .f32⟩
  | .hbm, ⟨74, _⟩ => ⟨S_, .f32⟩
  | .hbm, ⟨75, _⟩ => ⟨S8x16384, .f32⟩
  | .hbm, ⟨76, _⟩ => ⟨S8x16384x1, .f32⟩
  | .hbm, ⟨77, _⟩ => ⟨S_, .f32⟩
  | .hbm, ⟨78, _⟩ => ⟨S8x16384x1, .f32⟩
  | .hbm, ⟨79, _⟩ => ⟨S8x16384x1, .f32⟩
  | .hbm, ⟨80, _⟩ => ⟨S8x16384x258, .f32⟩
  | .hbm, ⟨81, _⟩ => ⟨S8x16384x258, .f32⟩
  | .hbm, ⟨82, _⟩ => ⟨S_, .f32⟩
  | .hbm, ⟨83, _⟩ => ⟨S8x16384x1, .f32⟩
  | .hbm, ⟨84, _⟩ => ⟨S8x16384x1, .f32⟩
  | .hbm, ⟨85, _⟩ => ⟨S8x16384x1, .f32⟩
  | .hbm, ⟨86, _⟩ => ⟨S8x16384x258, .f32⟩
  | .hbm, ⟨87, _⟩ => ⟨S8x16384x258, .f32⟩
  | .hbm, ⟨88, _⟩ => ⟨S1x1x258, .f32⟩
  | .hbm, ⟨89, _⟩ => ⟨S8x16384x258, .f32⟩
  | .hbm, ⟨90, _⟩ => ⟨S8x16384x258, .f32⟩
  | .hbm, ⟨91, _⟩ => ⟨S1x1x258, .f32⟩
  | .hbm, ⟨92, _⟩ => ⟨S8x16384x258, .f32⟩
  | .hbm, ⟨93, _⟩ => ⟨S8x16384x258, .f32⟩
  | .hbm, ⟨94, _⟩ => ⟨S8x16384x512, .f32⟩
  | .hbm, ⟨95, _⟩ => ⟨S131072x512, .f32⟩
  | .hbm, ⟨96, _⟩ => ⟨S_, .f32⟩
  | .hbm, ⟨97, _⟩ => ⟨S32768x512, .f32⟩
  | .hbm, ⟨98, _⟩ => ⟨S131072x1, .i32⟩
  | .hbm, ⟨99, _⟩ => ⟨S32768x512, .f32⟩
  | .hbm, ⟨100, _⟩ => ⟨S8x4096x512, .f32⟩
  | .hbm, ⟨101, _⟩ => ⟨S8x4096x1, .f32⟩
  | .hbm, ⟨102, _⟩ => ⟨S8x4096x512, .f32⟩
  | .hbm, ⟨103, _⟩ => ⟨S8x4096x512, .f32⟩
  | .hbm, ⟨104, _⟩ => ⟨S_, .f32⟩
  | .hbm, ⟨105, _⟩ => ⟨S8x4096, .f32⟩
  | .hbm, ⟨106, _⟩ => ⟨S8x4096, .i1⟩
  | .hbm, ⟨107, _⟩ => ⟨S8x4096, .f32⟩
  | .hbm, ⟨108, _⟩ => ⟨S8x4096x1, .f32⟩
  | .hbm, ⟨109, _⟩ => ⟨S8x4096x512, .f32⟩
  | .hbm, ⟨110, _⟩ => ⟨S8x4096x512, .f32⟩
  | .hbm, ⟨111, _⟩ => ⟨S8x4096x1, .f32⟩
  | .hbm, ⟨112, _⟩ => ⟨S8x4096x2, .f32⟩
  | .hbm, ⟨113, _⟩ => ⟨S8x4096x2, .f32⟩
  | .hbm, ⟨114, _⟩ => ⟨S8x4096x1, .f32⟩
  | _, _ => ⟨S8x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_8 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_9 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]

class Facts₀ : Prop where
  shapeCasts_S8x16384x2_S131072x2 : S8x16384x2.ShapeCasts S131072x2
  reducesTo_S131072x2_S2_d0 : S131072x2.ReducesTo [0] S2
  h_S_ : 0 < S_.numel
  bcast_S2_S1x1x2_2 : S2.BroadcastsInDim S1x1x2 (![2] : Fin 1 → Fin S1x1x2.rank)
  bcast_S1x1x2_S8x16384x2_0_1_2 : S1x1x2.BroadcastsInDim S8x16384x2 (![0, 1, 2] : Fin 3 → Fin S8x16384x2.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  shapeCasts_S8x16384_S131072 : S8x16384.ShapeCasts S131072
  bcast_S_S131072 : S_.BroadcastsInDim S131072 (![] : Fin 0 → Fin S131072.rank)
  bcast_S_S32768 : S_.BroadcastsInDim S32768 (![] : Fin 0 → Fin S32768.rank)
  bcast_S131072_S131072x1_0 : S131072.BroadcastsInDim S131072x1 (![0] : Fin 1 → Fin S131072x1.rank)
  shapeCasts_S32768_S8x4096 : S32768.ShapeCasts S8x4096
  bcast_S_S8x4096 : S_.BroadcastsInDim S8x4096 (![] : Fin 0 → Fin S8x4096.rank)
  bcast_S_S32768x2 : S_.BroadcastsInDim S32768x2 (![] : Fin 0 → Fin S32768x2.rank)
  shapeCasts_S32768x2_S8x4096x2 : S32768x2.ShapeCasts S8x4096x2
  bcast_S8x4096_S8x4096x1_0_1 : S8x4096.BroadcastsInDim S8x4096x1 (![0, 1] : Fin 2 → Fin S8x4096x1.rank)
  bcast_S8x4096x1_S8x4096x2_0_1_2 : S8x4096x1.BroadcastsInDim S8x4096x2 (![0, 1, 2] : Fin 3 → Fin S8x4096x2.rank)
  bcast_S8x16384_S8x16384x1_0_1 : S8x16384.BroadcastsInDim S8x16384x1 (![0, 1] : Fin 2 → Fin S8x16384x1.rank)
  bcast_S8x16384x1_S8x16384x2_0_1_2 : S8x16384x1.BroadcastsInDim S8x16384x2 (![0, 1, 2] : Fin 3 → Fin S8x16384x2.rank)
  bcast_S_S8x16384x2 : S_.BroadcastsInDim S8x16384x2 (![] : Fin 0 → Fin S8x16384x2.rank)
  shapeCasts_S8x16384x2_S8x16384x2x1 : S8x16384x2.ShapeCasts S8x16384x2x1
  bcast_S_S8x16384x2x1 : S_.BroadcastsInDim S8x16384x2x1 (![] : Fin 0 → Fin S8x16384x2x1.rank)
  bcast_S1_S1x1x1x1_3 : S1.BroadcastsInDim S1x1x1x1 (![3] : Fin 1 → Fin S1x1x1x1.rank)
  bcast_S1x1x1x1_S8x16384x2x1_0_1_2_3 : S1x1x1x1.BroadcastsInDim S8x16384x2x1 (![0, 1, 2, 3] : Fin 4 → Fin S8x16384x2x1.rank)
  reducesTo_S8x16384x2x1_S8x16384x2_d3 : S8x16384x2x1.ReducesTo [3] S8x16384x2
  concatenates_S8x16384x256_S8x16384x2_S8x16384x258_d2 : Shape.Concatenates [S8x16384x256, S8x16384x2] S8x16384x258 2
  reducesTo_S8x16384x258_S8x16384_d2 : S8x16384x258.ReducesTo [2] S8x16384
  bcast_S_S8x16384x1 : S_.BroadcastsInDim S8x16384x1 (![] : Fin 0 → Fin S8x16384x1.rank)
  bcast_S8x16384x1_S8x16384x258_0_1_2 : S8x16384x1.BroadcastsInDim S8x16384x258 (![0, 1, 2] : Fin 3 → Fin S8x16384x258.rank)
  bcast_S258_S1x1x258_2 : S258.BroadcastsInDim S1x1x258 (![2] : Fin 1 → Fin S1x1x258.rank)
  bcast_S1x1x258_S8x16384x258_0_1_2 : S1x1x258.BroadcastsInDim S8x16384x258 (![0, 1, 2] : Fin 3 → Fin S8x16384x258.rank)
  shapeCasts_S8x16384x512_S131072x512 : S8x16384x512.ShapeCasts S131072x512
  bcast_S_S32768x512 : S_.BroadcastsInDim S32768x512 (![] : Fin 0 → Fin S32768x512.rank)
  shapeCasts_S32768x512_S8x4096x512 : S32768x512.ShapeCasts S8x4096x512
  bcast_S8x4096x1_S8x4096x512_0_1_2 : S8x4096x1.BroadcastsInDim S8x4096x512 (![0, 1, 2] : Fin 3 → Fin S8x4096x512.rank)
  scatter_S32768_S131072x1_S131072_n_0_0_1_wf : ScatterDims.WF S32768 S131072x1 S131072 [] [0] [0] 1
  scatter_S32768x2_S131072x1_S131072x2_1_0_0_1_wf : ScatterDims.WF S32768x2 S131072x1 S131072x2 [1] [0] [0] 1
  gather_S8x4096x2_S8x16384x2x1_S8x16384x2_n_1_02_02_1_3_111_wf : GatherDims.WF S8x4096x2 S8x16384x2x1 S8x16384x2 [] [1] [0, 2] [1] [0, 2] 3 ![1, 1, 1]
  dot_S8x16384x258_S512x258_S8x16384x512_2_1_01_0_n_n_wf : DotDims.WF S8x16384x258 S512x258 S8x16384x512 [2] [1] [0, 1] [0] [] []
  scatter_S32768x512_S131072x1_S131072x512_1_0_0_1_wf : ScatterDims.WF S32768x512 S131072x1 S131072x512 [1] [0] [0] 1

variable [Facts₀]

def scatter_S32768_S131072x1_S131072_n_0_0_1 : ScatterDims S32768 S131072x1 S131072 where
  updateWindowDims := []
  insertedWindowDims := [0]
  scatterDimsToOperandDims := [0]
  indexVectorDim := 1
  wf := scatter_S32768_S131072x1_S131072_n_0_0_1_wf
def scatter_S32768x2_S131072x1_S131072x2_1_0_0_1 : ScatterDims S32768x2 S131072x1 S131072x2 where
  updateWindowDims := [1]
  insertedWindowDims := [0]
  scatterDimsToOperandDims := [0]
  indexVectorDim := 1
  wf := scatter_S32768x2_S131072x1_S131072x2_1_0_0_1_wf
def gather_S8x4096x2_S8x16384x2x1_S8x16384x2_n_1_02_02_1_3_111 : GatherDims S8x4096x2 S8x16384x2x1 S8x16384x2 where
  offsetDims := []
  collapsedSliceDims := [1]
  operandBatchingDims := [0, 2]
  startIndicesBatchingDims := [0, 2]
  startIndexMap := [1]
  indexVectorDim := 3
  sliceSizes := ![1, 1, 1]
  wf := gather_S8x4096x2_S8x16384x2x1_S8x16384x2_n_1_02_02_1_3_111_wf
def dot_S8x16384x258_S512x258_S8x16384x512_2_1_01_0_n_n : DotDims S8x16384x258 S512x258 S8x16384x512 where
  lhsContracting := [2]
  rhsContracting := [1]
  lhsNonContracting := [0, 1]
  rhsNonContracting := [0]
  lhsBatch := []
  rhsBatch := []
  wf := dot_S8x16384x258_S512x258_S8x16384x512_2_1_01_0_n_n_wf
def scatter_S32768x512_S131072x1_S131072x512_1_0_0_1 : ScatterDims S32768x512 S131072x1 S131072x512 where
  updateWindowDims := [1]
  insertedWindowDims := [0]
  scatterDimsToOperandDims := [0]
  indexVectorDim := 1
  wf := scatter_S32768x512_S131072x1_S131072x512_1_0_0_1_wf

class Facts : Prop extends Facts₀ where

variable [Facts]
-- ==== Proof.RefRunHand.lean ====
/-
  The reference program's run, read back over its operations one at a time.

  The reference is a straight line of 109 host operations. Every weakly fair execution of it terminates with each buffer
  at the fold of the operations over the launch contents, so each result is the composition of the operations that
  reach it, and is stated here as the last of the stage functions that name those operations one by one: the masked
  cluster mean positions, the masked cluster means of the projected tokens, and the validity mask.

  The first and the last result never meet the token array. The second does: the token array is a join of the
  feature array with the relative coordinates, and the operations behind the join's second operand (a gather over
  three segment sums) are read separately. The list is therefore cut just before the join: the 58 operations before
  it give the eight buffers the later operations read (the feature array, the relative coordinates, the three
  parameter arrays, the segment ids, the floored counts and the counts), each as its stage function; the 51 operations
  from the join on are then read over those eight.
-/
import proofs.«101709_j26929444946666_1_alg».proof.Proof.RefRead
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## The two results that do not read the token array -/

set_option maxHeartbeats 8000000 in
/-- The first result: the cluster mean positions, zeroed where a cluster is empty. -/
theorem ref_v73 (c : Dev nD) :
    after ops (launchContents m c) (Proc.devRef .tc main_v73) = val_main_v73 (F := F) (m ((c.tc : Thread nD τ).loc main_arg0)) (m ((c.tc : Thread nD τ).loc main_arg2)) := by
  after_results_simp <;> rfl

set_option maxHeartbeats 8000000 in
/-- The third result: one where a cluster has a token, zero where it has none. -/
theorem ref_v74 (c : Dev nD) :
    after ops (launchContents m c) (Proc.devRef .tc main_v74) = val_main_v74 (F := F) (m ((c.tc : Thread nD τ).loc main_arg2)) := by
  after_results_simp <;> rfl

set_option maxHeartbeats 4000000 in
/-- No operation writes argument 0: it ends as launched. -/
theorem kept_arg0 (c : Dev nD) :
    after ops (launchContents m c) (Proc.devRef .tc main_arg0) = (m ((c.tc : Thread nD τ).loc main_arg0)) := by
  after_results_simp <;> rfl

set_option maxHeartbeats 4000000 in
/-- No operation writes argument 1: it ends as launched. -/
theorem kept_arg1 (c : Dev nD) :
    after ops (launchContents m c) (Proc.devRef .tc main_arg1) = (m ((c.tc : Thread nD τ).loc main_arg1)) := by
  after_results_simp <;> rfl

set_option maxHeartbeats 4000000 in
/-- No operation writes argument 2: it ends as launched. -/
theorem kept_arg2 (c : Dev nD) :
    after ops (launchContents m c) (Proc.devRef .tc main_arg2) = (m ((c.tc : Thread nD τ).loc main_arg2)) := by
  after_results_simp <;> rfl

set_option maxHeartbeats 4000000 in
/-- No operation writes argument 3: it ends as launched. -/
theorem kept_arg3 (c : Dev nD) :
    after ops (launchContents m c) (Proc.devRef .tc main_arg3) = (m ((c.tc : Thread nD τ).loc main_arg3)) := by
  after_results_simp <;> rfl

set_option maxHeartbeats 4000000 in
/-- No operation writes argument 4: it ends as launched. -/
theorem kept_arg4 (c : Dev nD) :
    after ops (launchContents m c) (Proc.devRef .tc main_arg4) = (m ((c.tc : Thread nD τ).loc main_arg4)) := by
  after_results_simp <;> rfl

set_option maxHeartbeats 4000000 in
/-- No operation writes argument 5: it ends as launched. -/
theorem kept_arg5 (c : Dev nD) :
    after ops (launchContents m c) (Proc.devRef .tc main_arg5) = (m ((c.tc : Thread nD τ).loc main_arg5)) := by
  after_results_simp <;> rfl

/-! ## The second result: the list cut before the join -/

/-- The operation list as its first 58 operations followed by the rest. -/
theorem ops_split : (ops : List (HloOp τ sig (Elt F))) = List.take 58 ops ++ List.drop 58 ops :=
  (List.take_append_drop 58 _).symm

set_option maxHeartbeats 4000000 in
/-- Before the join the feature array is as launched. -/
theorem pre_arg1 (c : Dev nD) :
    after (List.take 58 ops) (launchContents m c) (Proc.devRef .tc main_arg1) = (m ((c.tc : Thread nD τ).loc main_arg1)) := by
  simp only [ops, List.take_succ_cons, List.take_zero]
  after_results_simp <;> (try simp only [TRef.ofBuf, TRef.toBuf, cast_eq]) <;> rfl

set_option maxHeartbeats 4000000 in
/-- Before the join the weight vector is as launched. -/
theorem pre_arg3 (c : Dev nD) :
    after (List.take 58 ops) (launchContents m c) (Proc.devRef .tc main_arg3) = (m ((c.tc : Thread nD τ).loc main_arg3)) := by
  simp only [ops, List.take_succ_cons, List.take_zero]
  after_results_simp <;> (try simp only [TRef.ofBuf, TRef.toBuf, cast_eq]) <;> rfl

set_option maxHeartbeats 4000000 in
/-- Before the join the bias vector is as launched. -/
theorem pre_arg4 (c : Dev nD) :
    after (List.take 58 ops) (launchContents m c) (Proc.devRef .tc main_arg4) = (m ((c.tc : Thread nD τ).loc main_arg4)) := by
  simp only [ops, List.take_succ_cons, List.take_zero]
  after_results_simp <;> (try simp only [TRef.ofBuf, TRef.toBuf, cast_eq]) <;> rfl

set_option maxHeartbeats 4000000 in
/-- Before the join the coefficient matrix is as launched. -/
theorem pre_arg5 (c : Dev nD) :
    after (List.take 58 ops) (launchContents m c) (Proc.devRef .tc main_arg5) = (m ((c.tc : Thread nD τ).loc main_arg5)) := by
  simp only [ops, List.take_succ_cons, List.take_zero]
  after_results_simp <;> (try simp only [TRef.ofBuf, TRef.toBuf, cast_eq]) <;> rfl

set_option maxHeartbeats 4000000 in
/-- Before the join: the flattened segment ids. -/
theorem pre_v11 (c : Dev nD) :
    after (List.take 58 ops) (launchContents m c) (Proc.devRef .tc main_v11) = val_main_v11 (F := F) (m ((c.tc : Thread nD τ).loc main_arg2)) := by
  simp only [ops, List.take_succ_cons, List.take_zero]
  after_results_simp <;> (try simp only [TRef.ofBuf, TRef.toBuf, cast_eq]) <;> rfl

set_option maxHeartbeats 4000000 in
/-- Before the join: the cluster counts. -/
theorem pre_v16 (c : Dev nD) :
    after (List.take 58 ops) (launchContents m c) (Proc.devRef .tc main_v16) = val_main_v16 (F := F) (m ((c.tc : Thread nD τ).loc main_arg2)) := by
  simp only [ops, List.take_succ_cons, List.take_zero]
  after_results_simp <;> (try simp only [TRef.ofBuf, TRef.toBuf, cast_eq]) <;> rfl

set_option maxHeartbeats 4000000 in
/-- Before the join: the counts floored at one. -/
theorem pre_v18 (c : Dev nD) :
    after (List.take 58 ops) (launchContents m c) (Proc.devRef .tc main_v18) = val_main_v18 (F := F) (m ((c.tc : Thread nD τ).loc main_arg2)) := by
  simp only [ops, List.take_succ_cons, List.take_zero]
  after_results_simp <;> (try simp only [TRef.ofBuf, TRef.toBuf, cast_eq]) <;> rfl

set_option maxHeartbeats 16000000 in
/-- Before the join: each token's coordinates relative to its cluster's mean position. -/
theorem pre_v30 (c : Dev nD) :
    after (List.take 58 ops) (launchContents m c) (Proc.devRef .tc main_v30) = val_main_v30 (F := F) (m ((c.tc : Thread nD τ).loc main_arg0)) (m ((c.tc : Thread nD τ).loc main_arg2)) := by
  simp only [ops, List.take_succ_cons, List.take_zero]
  after_results_simp <;> (try simp only [TRef.ofBuf, TRef.toBuf, cast_eq]) <;> rfl

set_option maxHeartbeats 16000000 in
/-- The second result: the cluster means of the projected, normalised tokens, zeroed where a cluster is empty. The 51
    operations from the join on, read over the eight buffers they take from the first 58. -/
theorem ref_v70 (c : Dev nD) :
    after ops (launchContents m c) (Proc.devRef .tc main_v70)
      = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e1 := pre_arg1 m c
  have e3 := pre_arg3 m c
  have e4 := pre_arg4 m c
  have e5 := pre_arg5 m c
  have e11 := pre_v11 m c
  have e16 := pre_v16 m c
  have e18 := pre_v18 m c
  have e30 := pre_v30 m c
  rw [ops_split, StableHlo.after_append]
  generalize after (List.take 58 ops) (launchContents m c) = W at e1 e3 e4 e5 e11 e16 e18 e30 ⊢
  simp only [ops, List.drop_succ_cons, List.drop_zero]
  after_results_simp
  rw [e1, e3, e4, e5, e11, e16, e18, e30]
  rfl

/-! ## The run -/

/-- On every device, for any float values, from any memory with zero counters: every weakly fair execution of the
    reference terminates with its three results at their stage functions of the launch arguments, the arguments
    unchanged. -/
theorem run (ρ : Dev nD → PrngReg) :
    θ_run defs (onTc (τ := τ) (main (F := F))) ⟨m, fun _ => 0, ρ⟩ fun r => ∀ c : Dev nD,
      r.2.mem ((c.tc : Thread nD τ).loc main_v73) = val_main_v73 (F := F) (m ((c.tc : Thread nD τ).loc main_arg0)) (m ((c.tc : Thread nD τ).loc main_arg2))
      ∧ r.2.mem ((c.tc : Thread nD τ).loc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v74) = val_main_v74 (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v73).trans (ref_v73 m c),
      (h c main_v70).trans (ref_v70 m c),
      (h c main_v74).trans (ref_v74 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq scopedRefs_eq scopedSems_eq defs main (fun _ => ops) main_eq (fun _ => ops_sub) m ρ)

end Cert.ReferenceIdeal.Hand

end
-- ==== Proof.KernelHead.lean ====
/-
  What the region finds: the host lines before the pallas call, as functions of the launch arguments.

  The kernel's program and the reference begin with the same host lines (the coordinates divided by their per-axis
  maximum; the segment id of every token; the cluster counts, their floor at one, and the cluster mean positions by
  segment sums; the gathered mean position subtracted from each token's; the features and relative coordinates joined).
  Each buffer the later lines or the region read is therefore the same function of the launch arguments that the
  reference's corresponding line computes, and is stated here as that function, never opened. The last three lines
  only re-lay the weight vector, the bias vector and the coefficient matrix for the region.
-/
import proofs.«101709_j26929444946666_1_alg».proof.Proof.Gen.KernelIdeal.Frame
import proofs.«101709_j26929444946666_1_alg».proof.Proof.RefRead
import Idealize.ShloMosaic.Lib.StableHlo.Run

set_option maxRecDepth 16384

noncomputable section

namespace Cert.KernelIdeal.Head

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F]
variable (m : (ℓ : Loc nD τ sig) → Buf (Elt F) ℓ)

set_option maxHeartbeats 1000000 in
/-- The flattened segment ids: each token's cluster plus 4096 times its batch. -/
theorem V_v11 (c : Dev nD) :
    V m c main_v11 = val_main_v11 (F := F) (m ((c : Thread nD τ).loc main_arg2)) := by
  dsimp only [V, V0]
  simp only [hostOps0, hostOps0_1, hostOps0_2, List.flatten_cons, List.flatten_nil, List.append_nil, List.cons_append,
    List.nil_append]
  after_results_simp <;> rfl

set_option maxHeartbeats 1000000 in
/-- The cluster counts: the segment sum of ones, one row of 4096 clusters per batch. -/
theorem V_v16 (c : Dev nD) :
    V m c main_v16 = val_main_v16 (F := F) (m ((c : Thread nD τ).loc main_arg2)) := by
  dsimp only [V, V0]
  simp only [hostOps0, hostOps0_1, hostOps0_2, List.flatten_cons, List.flatten_nil, List.append_nil, List.cons_append,
    List.nil_append]
  after_results_simp <;> rfl

set_option maxHeartbeats 1000000 in
/-- The counts floored at one: the divisor of both cluster means. -/
theorem V_v18 (c : Dev nD) :
    V m c main_v18 = val_main_v18 (F := F) (m ((c : Thread nD τ).loc main_arg2)) := by
  dsimp only [V, V0]
  simp only [hostOps0, hostOps0_1, hostOps0_2, List.flatten_cons, List.flatten_nil, List.append_nil, List.cons_append,
    List.nil_append]
  after_results_simp <;> rfl

set_option maxHeartbeats 2000000 in
/-- The cluster mean positions: the segment sum of the normalised coordinates over the floored counts. -/
theorem V_v26 (c : Dev nD) :
    V m c main_v26 = val_main_v26 (F := F) (m ((c : Thread nD τ).loc main_arg0)) (m ((c : Thread nD τ).loc main_arg2)) := by
  dsimp only [V, V0]
  simp only [hostOps0, hostOps0_1, hostOps0_2, List.flatten_cons, List.flatten_nil, List.append_nil, List.cons_append,
    List.nil_append]
  after_results_simp <;> rfl

set_option maxHeartbeats 1000000 in
/-- The weight vector, re-laid as one row for the region. -/
theorem V_v32 (c : Dev nD) :
    V m c main_v32 = shapeCast S1x258 (m ((c : Thread nD τ).loc main_arg3)) shapeCasts_S258_S1x258 := by
  dsimp only [V, V0]
  simp only [hostOps0, hostOps0_1, hostOps0_2, List.flatten_cons, List.flatten_nil, List.append_nil, List.cons_append,
    List.nil_append]
  after_results_simp <;> rfl

set_option maxHeartbeats 1000000 in
/-- The bias vector, re-laid as one row for the region. -/
theorem V_v33 (c : Dev nD) :
    V m c main_v33 = shapeCast S1x258 (m ((c : Thread nD τ).loc main_arg4)) shapeCasts_S258_S1x258 := by
  dsimp only [V, V0]
  simp only [hostOps0, hostOps0_1, hostOps0_2, List.flatten_cons, List.flatten_nil, List.append_nil, List.cons_append,
    List.nil_append]
  after_results_simp <;> rfl

set_option maxHeartbeats 1000000 in
/-- The coefficient matrix, transposed for the region: entry (k, o) is the argument's entry (o, k). -/
theorem V_v34 (c : Dev nD) :
    V m c main_v34 = transpose S258x512 [1, 0] (m ((c : Thread nD τ).loc main_arg5)) transposes_S512x258_S258x512_1_0 := by
  dsimp only [V, V0]
  simp only [hostOps0, hostOps0_1, hostOps0_2, List.flatten_cons, List.flatten_nil, List.append_nil, List.cons_append,
    List.nil_append]
  after_results_simp <;> rfl

/-- The three stretches of host lines before the region, with the last one split off. -/
theorem flatten_split :
    List.flatten [(hostOps0 : List (HloOp τ sig (Elt F))), hostOps0_1, hostOps0_2] = List.flatten [hostOps0, hostOps0_1] ++ hostOps0_2 := by
  simp only [List.flatten_cons, List.flatten_nil, List.append_nil, List.append_assoc]

set_option maxHeartbeats 2000000 in
/-- Before the last stretch: the coordinates divided by their per-axis maximum. -/
theorem pre_v4 (c : Dev nD) :
    StableHlo.after (List.flatten [hostOps0, hostOps0_1]) (fun b => m (c, b)) (Proc.devRef .tc main_v4) = val_main_v4 (F := F) (m ((c : Thread nD τ).loc main_arg0)) := by
  simp only [hostOps0, hostOps0_1, List.flatten_cons, List.flatten_nil, List.append_nil, List.cons_append, List.nil_append]
  after_results_simp <;> (try simp only [TRef.ofBuf, TRef.toBuf, cast_eq]) <;> rfl

set_option maxHeartbeats 8000000 in
/-- Before the last stretch: each token's cluster mean position, gathered along the token axis (out-of-range ids filled). -/
theorem pre_v29 (c : Dev nD) :
    StableHlo.after (List.flatten [hostOps0, hostOps0_1]) (fun b => m (c, b)) (Proc.devRef .tc main_v29) = val_main_v29 (F := F) (m ((c : Thread nD τ).loc main_arg0)) (m ((c : Thread nD τ).loc main_arg2)) := by
  simp only [hostOps0, hostOps0_1, List.flatten_cons, List.flatten_nil, List.append_nil, List.cons_append, List.nil_append]
  after_results_simp <;> (try simp only [TRef.ofBuf, TRef.toBuf, cast_eq]) <;> rfl

set_option maxHeartbeats 2000000 in
/-- Before the last stretch the feature array is as launched. -/
theorem pre_arg1 (c : Dev nD) :
    StableHlo.after (List.flatten [hostOps0, hostOps0_1]) (fun b => m (c, b)) (Proc.devRef .tc main_arg1) = (m ((c : Thread nD τ).loc main_arg1)) := by
  simp only [hostOps0, hostOps0_1, List.flatten_cons, List.flatten_nil, List.append_nil, List.cons_append, List.nil_append]
  after_results_simp <;> (try simp only [TRef.ofBuf, TRef.toBuf, cast_eq]) <;> rfl

set_option maxHeartbeats 2000000 in
/-- The region's token array: each token's 256 features joined with its coordinates relative to its cluster's mean
    position. The last stretch subtracts and joins; what it reads was computed before it. -/
theorem V_v31 (c : Dev nD) :
    V m c main_v31 = val_main_v31 (F := F) (m ((c : Thread nD τ).loc main_arg0)) (m ((c : Thread nD τ).loc main_arg1)) (m ((c : Thread nD τ).loc main_arg2)) := by
  have e4 := pre_v4 m c
  have e29 := pre_v29 m c
  have e1 := pre_arg1 m c
  dsimp only [V, V0]
  rw [flatten_split, StableHlo.after_append]
  generalize StableHlo.after (List.flatten [hostOps0, hostOps0_1]) (fun b => m (c, b)) = W at e4 e29 e1 ⊢
  simp only [hostOps0_2]
  after_results
  rw [e4, e29, e1]
  rfl

end Cert.KernelIdeal.Head

end
-- ==== Proof.KernelTail.lean ====
/-
  The host lines after the pallas call, read back.

  After the region the program sums the projected tokens into their clusters, divides by the floored counts, and zeroes
  the empty clusters; it masks the cluster mean positions the same way and returns the mask. These twenty lines read the
  region's result array and four buffers computed before the region (the segment ids, the counts, the floored counts and
  the mean positions), which the region leaves as it found them. The reference ends with the same twenty lines, so each
  result is the reference's last stage function of the same operands: of the launch arguments alone for the masked
  positions and the mask, and for the pooled features of whatever the region's result array is shown to hold.
-/
import proofs.«101709_j26929444946666_1_alg».proof.Proof.Gen.KernelIdeal.Frame
import proofs.«101709_j26929444946666_1_alg».proof.Proof.RefRead
import proofs.«101709_j26929444946666_1_alg».proof.Proof.KernelHead
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.ReferenceIdeal.ReadP

variable {F : FTy → Type} [FloatOps F]
variable (m : (ℓ : Loc nD τ sig) → Buf (Elt F) ℓ)

/-- Core `c`'s buffers as the region leaves them: the pipeline's arrays at their final contents, every other buffer
    as the region found it. -/
abbrev exit (c : Dev nD) : Valuation τ sig (Elt F) :=
  Pipeline.withArrays (cfgs 0).spec c (V0 m c) fun w => (dats m 0 c).arrAt w (cfgs 0).N

/-- What a buffer holds after the lines that follow the region: those lines' fold over the region's exit contents. -/
theorem afterTail_eq (c : Dev nD) (b : Ref sig .tc) :
    Pipeline.afterTail₀ cfgs (dats m) 0 (V0 m) [hostOps1] c b = StableHlo.after hostOps1 (exit m c) (Proc.devRef .tc b) := by
  unfold Pipeline.afterTail₀
  simp only [List.flatten_cons, List.flatten_nil, List.append_nil]

/-- The region's result array at the exit is the output window's final array. -/
theorem exit_v35 (c : Dev nD) : exit m c (Proc.devRef .tc main_v35) = (dats m 0 c).arrAt 4 cfg0.N :=
  Pipeline.withArrays_arr spec0 launch0.win.arr_inj c _ _ 4

/-- A buffer that is no window's array is at the exit what the region found. -/
theorem exit_of_ne (c : Dev nD) (b : Ref sig .tc) (hb : ∀ w, Pipeline.arrRef spec0 w ≠ b) :
    exit m c (Proc.devRef .tc b) = V m c b :=
  Pipeline.withArrays_of_ne _ c (V0 m c) _ b hb

set_option maxHeartbeats 2000000 in
/-- The third result, the validity mask: one where a cluster's count is positive. -/
theorem tail_v53 (c : Dev nD) :
    Pipeline.afterTail₀ cfgs (dats m) 0 (V0 m) [hostOps1] c main_v53 = val_main_v74 (F := F) (m ((c : Thread nD τ).loc main_arg2)) := by
  have e16 := (exit_of_ne m c main_v16 (by exact (by decide : ∀ w, Pipeline.arrRef spec0 w ≠ main_v16))).trans (Head.V_v16 m c)
  rw [afterTail_eq]
  generalize exit m c = E at e16 ⊢
  after_results_simp
  rw [e16]
  rfl

set_option maxHeartbeats 2000000 in
/-- The first result: the cluster mean positions, zeroed where a cluster is empty. -/
theorem tail_v52 (c : Dev nD) :
    Pipeline.afterTail₀ cfgs (dats m) 0 (V0 m) [hostOps1] c main_v52 = val_main_v73 (F := F) (m ((c : Thread nD τ).loc main_arg0)) (m ((c : Thread nD τ).loc main_arg2)) := by
  have e16 := (exit_of_ne m c main_v16 (by exact (by decide : ∀ w, Pipeline.arrRef spec0 w ≠ main_v16))).trans (Head.V_v16 m c)
  have e26 := (exit_of_ne m c main_v26 (by exact (by decide : ∀ w, Pipeline.arrRef spec0 w ≠ main_v26))).trans (Head.V_v26 m c)
  rw [afterTail_eq]
  generalize exit m c = E at e16 e26 ⊢
  after_results_simp
  rw [e16, e26]
  rfl

set_option maxHeartbeats 4000000 in
/-- The second result: if the region's result array holds the projected, normalised tokens, the lines after the region
    leave their cluster means, zeroed where a cluster is empty. -/
theorem tail_v49 (c : Dev nD)
    (h56 : (dats m 0 c).arrAt 4 cfg0.N
      = val_main_v56 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    Pipeline.afterTail₀ cfgs (dats m) 0 (V0 m) [hostOps1] c main_v49
      = val_main_v70 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e35 := (exit_v35 m c).trans h56
  have e11 := (exit_of_ne m c main_v11 (by exact (by decide : ∀ w, Pipeline.arrRef spec0 w ≠ main_v11))).trans (Head.V_v11 m c)
  have e16 := (exit_of_ne m c main_v16 (by exact (by decide : ∀ w, Pipeline.arrRef spec0 w ≠ main_v16))).trans (Head.V_v16 m c)
  have e18 := (exit_of_ne m c main_v18 (by exact (by decide : ∀ w, Pipeline.arrRef spec0 w ≠ main_v18))).trans (Head.V_v18 m c)
  rw [afterTail_eq]
  generalize exit m c = E at e35 e11 e16 e18 ⊢
  after_results_simp
  rw [e35, e11, e16, e18]
  rfl

end Cert.KernelIdeal.Tail

end
-- ==== Proof.LnSpec.lean ====
/-
  One token's layer normalisation followed by one output feature of the linear map, over the extended reals.

  A token is a row `x` of 258 numbers (256 features and the two relative coordinates). Its mean is the row's sum over
  258, its variance the sum of the squared deviations over 258; each entry is centred, scaled by the reciprocal square
  root of the variance plus the stabiliser, multiplied by its weight and shifted by its bias; and an output feature is
  the sum over the 258 entries of the normalised entry times that feature's coefficient. Both programs compute exactly
  this, with the operations in this order, so no law of the extended reals beyond reading a sum index by index is needed.
  The two float words are 258 and the stabiliser as the programs spell them; they are never evaluated.
-/
import Idealize.ShloMosaic.PureOps.Ideal
import Idealize.ShloMosaic.PureOps.Ideal.Laws

noncomputable section

namespace Cert.LnLin

open Idealize.ShloMosaic

/-- The divisor of both means: the float word of 258. -/
abbrev width : EReal := Ideal.ofBits .f32 0x43810000#32

/-- The stabiliser added to the variance: the float word of 9.99999974e-6. -/
abbrev stab : EReal := Ideal.ofBits .f32 0x3727C5AC#32

/-- The row's mean: its sum divided by 258. -/
def mean (x : Fin 258 → EReal) : EReal := Ideal.div (∑ k : Fin 258, x k) width

/-- The row's variance: the sum of the squared deviations from the mean, divided by 258. -/
def var (x : Fin 258 → EReal) : EReal := Ideal.div (∑ k : Fin 258, (x k - mean x) * (x k - mean x)) width

/-- Entry `k` of the normalised row: centred, scaled by `rsqrt (var + stab)`, times the weight, plus the bias. -/
def normed (x w b : Fin 258 → EReal) (k : Fin 258) : EReal :=
  (x k - mean x) * Ideal.rsqrt (var x + stab) * w k + b k

/-- One output feature: the normalised row against that feature's 258 coefficients. -/
def out (x w b l : Fin 258 → EReal) : EReal := ∑ k : Fin 258, normed x w b k * l k

end Cert.LnLin

end
-- ==== Proof.KernelPayload.lean ====
/-
  The kernel body's stored value, read at one entry.

  The body loads a block of 4096 tokens (each a row of 258 numbers), the weight and bias rows and the 258 x 512
  coefficient matrix, and stores one 4096 x 512 block. Entry (r, o) of that block is token r's layer normalisation
  against column o of the matrix: the row sums are lane sums over the 258 entries, the two narrowings to the short float
  format are the identity on the extended reals, and the matrix product into a zero accumulator is the plain sum over the
  contracted axis.
-/
import proofs.«101709_j26929444946666_1_alg».proof.Proof.Gen.KernelIdeal.Skeleton
import proofs.«101709_j26929444946666_1_alg».proof.Proof.LnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The lane sum of row r of a 4096 x 258 array is the sum of the row's 258 entries. -/
private theorem rowSum_apply (v : FVec Ideal S4096x258 .f32) (h : S4096x258.Reduces [1] S4096) (hφ : FKind.Formats .f32)
    (hacc : (0x00000000#32 : BitVec 32) = FKind.add.neutral .f32 hφ) (r : Fin 4096) :
    multiReduction (F := Ideal) .add [1] S4096 v 0x00000000#32 h hφ hacc (ix1 r) = ∑ k : Fin 258, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- A vector of 4096 entries cast to a 4096 x 1 column reads, at (r, u), the vector's entry r. -/
private theorem colCast_apply {α : Type} (y : S4096.Idx → α) (h : S4096.ShapeCasts S4096x1) (r : Fin 4096) (u : Fin 1) :
    shapeCast S4096x1 y h (ix2 r u) = y (ix1 r) :=
  shapeCast_apply y h _ _ (by
    have hu : u.val = 0 := by omega
    rw [Shape.rowMajor_val_two, Shape.rowMajor_val_one]
    show r.val = r.val * 1 + u.val
    rw [hu, Nat.mul_one, Nat.add_zero])

/-- A 4096 x 1 column broadcast along the rows reads, at (r, k), the column's entry r. -/
private theorem colBcast_apply {α : Type} (y : S4096x1.Idx → α) (h : S4096x1.Broadcasts S4096x258) (r : Fin 4096)
    (k : Fin 258) : broadcastTo S4096x258 y h (ix2 r k) = y (ix2 r (0 : Fin 1)) := by
  refine broadcastTo_apply y h (ix2 r k) (ix2 r (0 : Fin 1)) fun ax => ?_
  match ax with
  | ⟨0, _⟩ => rfl
  | ⟨1, _⟩ => rfl

/-- On its row axis the product's left factor is read at the result's row. -/
private theorem lhs_mm_0 (i : S4096x512.Idx) (q : dot_S4096x258_S258x512_S4096x512_1_0_0_1_n_n.contr.Idx) :
    (dot_S4096x258_S258x512_S4096x512_1_0_0_1_n_n.lhsIdx i q 0).val = (i 0).val := by
  unfold DotDims.lhsIdx
  rw [dif_neg (show ¬(0 : Fin S4096x258.rank) ∈ dot_S4096x258_S258x512_S4096x512_1_0_0_1_n_n.lhsBatch by decide), dif_pos (show (0 : Fin S4096x258.rank) ∈ dot_S4096x258_S258x512_S4096x512_1_0_0_1_n_n.lhsNonContracting by decide)]
  rfl
/-- On its contracted axis the product's left factor is read at the contraction position. -/
private theorem lhs_mm_1 (i : S4096x512.Idx) (q : dot_S4096x258_S258x512_S4096x512_1_0_0_1_n_n.contr.Idx) :
    (dot_S4096x258_S258x512_S4096x512_1_0_0_1_n_n.lhsIdx i q 1).val = (q ⟨0, by decide⟩).val :=
  dot_S4096x258_S258x512_S4096x512_1_0_0_1_n_n.lhsIdx_val_of_single rfl i q
/-- On its contracted axis the product's right factor is read at the contraction position. -/
private theorem rhs_mm_0 (i : S4096x512.Idx) (q : dot_S4096x258_S258x512_S4096x512_1_0_0_1_n_n.contr.Idx) :
    (dot_S4096x258_S258x512_S4096x512_1_0_0_1_n_n.rhsIdx i q 0).val = (q ⟨0, by decide⟩).val :=
  dot_S4096x258_S258x512_S4096x512_1_0_0_1_n_n.rhsIdx_val_of_single rfl i q
/-- On its column axis the product's right factor is read at the result's column. -/
private theorem rhs_mm_1 (i : S4096x512.Idx) (q : dot_S4096x258_S258x512_S4096x512_1_0_0_1_n_n.contr.Idx) :
    (dot_S4096x258_S258x512_S4096x512_1_0_0_1_n_n.rhsIdx i q 1).val = (i 1).val := by
  unfold DotDims.rhsIdx
  rw [dif_neg (show ¬(1 : Fin S258x512.rank) ∈ dot_S4096x258_S258x512_S4096x512_1_0_0_1_n_n.rhsBatch by decide), dif_pos (show (1 : Fin S258x512.rank) ∈ dot_S4096x258_S258x512_S4096x512_1_0_0_1_n_n.rhsNonContracting by decide)]
  rfl

/-- The 4096 x 258 by 258 x 512 product into the zero accumulator is, at (r, o), the sum over k of A(r, k) times B(k, o). -/
private theorem mm_apply {φ₁ φ₂ : FTy} (A : FVec Ideal S4096x258 φ₁) (B : FVec Ideal S258x512 φ₂) (r : Fin 4096) (o : Fin 512) :
    matmul dot_S4096x258_S258x512_S4096x512_1_0_0_1_n_n none A B (constant (F := Ideal) S4096x512 .f32 0x00000000#32) (ix2 r o)
      = ∑ k : Fin 258, A (ix2 r k) * B (ix2 k o) := by
  simp only [matmul]
  rw [Ideal.matmul_constant_zero_apply, ← Equiv.sum_comp (ValueIdx.contrEquiv1 dot_S4096x258_S258x512_S4096x512_1_0_0_1_n_n 258 rfl rfl).symm]
  refine Finset.sum_congr rfl fun k _ => ?_
  have hk := ValueIdx.contrEquiv1_symm_val dot_S4096x258_S258x512_S4096x512_1_0_0_1_n_n 258 rfl rfl k
  have el : dot_S4096x258_S258x512_S4096x512_1_0_0_1_n_n.lhsIdx (ix2 r o) ((ValueIdx.contrEquiv1 dot_S4096x258_S258x512_S4096x512_1_0_0_1_n_n 258 rfl rfl).symm k) = ix2 r k := funext fun a => Fin.ext (by
    match a with
    | ⟨0, _⟩ => exact lhs_mm_0 _ _
    | ⟨1, _⟩ => exact (lhs_mm_1 _ _).trans hk)
  have er : dot_S4096x258_S258x512_S4096x512_1_0_0_1_n_n.rhsIdx (ix2 r o) ((ValueIdx.contrEquiv1 dot_S4096x258_S258x512_S4096x512_1_0_0_1_n_n 258 rfl rfl).symm k) = ix2 k o := funext fun a => Fin.ext (by
    match a with
    | ⟨0, _⟩ => exact (rhs_mm_0 _ _).trans hk
    | ⟨1, _⟩ => exact rhs_mm_1 _ _)
  rw [el, er]

/-- A row's lane sum kept as a column and divided by a splat is, at (r, u), row r's sum divided by the splat's value. -/
private theorem rowMean_apply (V : FVec Ideal S4096x258 .f32) (c : Ideal .f32) (h : S4096x258.Reduces [1] S4096)
    (hφ : FKind.Formats .f32) (hacc : (0x00000000#32 : BitVec 32) = FKind.add.neutral .f32 hφ)
    (hc : S4096.ShapeCasts S4096x1) (r : Fin 4096) (u : Fin 1) :
    divf (shapeCast S4096x1 (multiReduction (F := Ideal) .add [1] S4096 V 0x00000000#32 h hφ hacc) hc)
        (broadcast S4096x1 c) (ix2 r u)
      = Ideal.div (∑ k : Fin 258, V (ix2 r k)) c := by
  show Ideal.div (shapeCast S4096x1 _ hc (ix2 r u)) c = _
  rw [colCast_apply, rowSum_apply]

/-- An array minus its row means broadcast along the rows is, at (r, k), the entry minus row r's mean. -/
private theorem centred_apply (V : FVec Ideal S4096x258 .f32) (h : S4096x258.Reduces [1] S4096)
    (hφ : FKind.Formats .f32) (hacc : (0x00000000#32 : BitVec 32) = FKind.add.neutral .f32 hφ)
    (hc : S4096.ShapeCasts S4096x1) (hb : S4096x1.Broadcasts S4096x258) (r : Fin 4096) (k : Fin 258) :
    subf V (broadcastTo S4096x258
        (divf (shapeCast S4096x1 (multiReduction (F := Ideal) .add [1] S4096 V 0x00000000#32 h hφ hacc) hc)
          (broadcast S4096x1 (FloatOps.ofBits .f32 0x43810000#32))) hb) (ix2 r k)
      = V (ix2 r k) - Cert.LnLin.mean (fun j => V (ix2 r j)) := by
  show V (ix2 r k) - broadcastTo S4096x258 _ hb (ix2 r k) = _
  rw [colBcast_apply, rowMean_apply]
  rfl

/-- Where row r of `C` reads `c`, the broadcast scale is, at (r, k), rsqrt of the mean of the squares of `c` plus the stabiliser. -/
private theorem scale_apply (C : FVec Ideal S4096x258 .f32) (c : Fin 258 → EReal) (r : Fin 4096)
    (hC : ∀ j : Fin 258, C (ix2 r j) = c j) (h : S4096x258.Reduces [1] S4096)
    (hφ : FKind.Formats .f32) (hacc : (0x00000000#32 : BitVec 32) = FKind.add.neutral .f32 hφ)
    (hc : S4096.ShapeCasts S4096x1) (hb : S4096x1.Broadcasts S4096x258) (k : Fin 258) :
    broadcastTo S4096x258
        (rsqrt (addf
          (divf (shapeCast S4096x1 (multiReduction (F := Ideal) .add [1] S4096 (mulf C C) 0x00000000#32 h hφ hacc) hc)
            (broadcast S4096x1 (FloatOps.ofBits .f32 0x43810000#32)))
          (broadcast S4096x1 (FloatOps.ofBits .f32 0x3727C5AC#32)))) hb (ix2 r k)
      = Ideal.rsqrt (Ideal.div (∑ j : Fin 258, c j * c j) Cert.LnLin.width + Cert.LnLin.stab) := by
  have hs : ∑ j : Fin 258, mulf C C (ix2 r j) = ∑ j : Fin 258, c j * c j :=
    Finset.sum_congr rfl fun j _ => congrArg₂ (· * ·) (hC j) (hC j)
  rw [colBcast_apply]
  refine (congrArg (fun t => Ideal.rsqrt (t + Cert.LnLin.stab))
    (rowMean_apply (mulf C C) _ h hφ hacc hc r 0)).trans ?_
  exact congrArg (fun t => Ideal.rsqrt (Ideal.div t Cert.LnLin.width + Cert.LnLin.stab)) hs

/-- A 1 x 258 row cast to itself and broadcast down 4096 rows reads, at (r, k), the row's entry k. -/
private theorem rowBcast_apply (W : FVec Ideal S1x258 .f32) (hs : S1x258.ShapeCasts S1x258) (hb : S1x258.Broadcasts S4096x258)
    (r : Fin 4096) (k : Fin 258) :
    broadcastTo S4096x258 (shapeCast S1x258 W hs) hb (ix2 r k) = W (ix2 (0 : Fin 1) k) := by
  rw [broadcastTo_1b_ab_apply, shapeCast_self]

/-- Entry (r, o) of the stored block: token r of the loaded block, normalised with the loaded weight and bias rows,
    against column o of the loaded matrix. -/
theorem pay_apply (v0 : Vec Ideal S1x4096x258 .f32) (v18 v22 : Vec Ideal S1x258 .f32) (v27 : Vec Ideal S258x512 .f32)
    (r : Fin 4096) (o : Fin 512) :
    k0_pay1 (F := Ideal) v0 v18 v22 v27 (ix3 (0 : Fin 1) r o) =
      Cert.LnLin.out (fun k => v0 (ix3 (0 : Fin 1) r k)) (fun k => v18 (ix2 (0 : Fin 1) k))
        (fun k => v22 (ix2 (0 : Fin 1) k)) (fun k => v27 (ix2 k o)) := by
  unfold k0_pay1
  -- the stored block drops its leading unit axis, and the product into zero is the sum over the contracted axis
  refine (shapeCast_ab_1ab_apply _ _ (0 : Fin 1) r o).trans ?_
  refine (mm_apply _ _ r o).trans ?_
  unfold Cert.LnLin.out
  refine Finset.sum_congr rfl fun k _ => ?_
  -- the right factor is the matrix itself: a cast to the same shape, and a narrowing that is the identity
  refine congrArg₂ (· * ·) ?_ (congrFun (shapeCast_self v27 _) (ix2 k o))
  -- the left factor at (r, k): centred entry times scale times weight plus bias, each read at the index
  refine (congrArg₂ (· + ·) (congrArg₂ (· * ·) (congrArg₂ (· * ·) (centred_apply _ _ _ _ _ _ r k)
    (scale_apply _ _ r (fun j => centred_apply _ _ _ _ _ _ r j) _ _ _ _ _ k)) (rowBcast_apply _ _ _ r k))
    (rowBcast_apply _ _ _ r k)).trans ?_
  -- row r of the block without its unit axis is token r
  simp only [shapeCast_1ab_ab_apply]
  rfl

end Cert.KernelIdeal.Body

end
-- ==== Proof.RefMiddle.lean ====
/-
  The reference's layer normalisation and linear map, read at one entry.

  Between the concatenated token array and the segment sums the reference normalises every token and multiplies by the
  coefficient matrix with one `dot_general`. Entry i = (batch, token, feature) of that product is the token's layer
  normalisation against the feature's row of coefficients: the two host sums read as their initial value, zero, plus the
  sum over the 258 entries, and the product as the sum over the contracted axis.
-/
import proofs.«101709_j26929444946666_1_alg».proof.Proof.RefRead
import proofs.«101709_j26929444946666_1_alg».proof.Proof.LnSpec
import Idealize.ShloMosaic.Lib.ValueIdx
import Idealize.ShloMosaic.Lib.Pipeline.Value
import Idealize.ShloMosaic.PureOps.Ideal.Laws

noncomputable section

namespace Cert.ReferenceIdeal.Middle

open Idealize.ShloMosaic Idealize.ShloMosaic.ValueIdx Cert.ReferenceIdeal Cert.ReferenceIdeal.Gen Cert.ReferenceIdeal.ReadP

/-- Two indices of the token array with the same three coordinates read the same entry. -/
private theorem idx_congr {y : (⟨S8x16384x258, .f32⟩ : BufTy).Contents (Elt Ideal)} {p q : S8x16384x258.Idx}
    (h0 : (p 0).val = (q 0).val) (h1 : (p 1).val = (q 1).val) (h2 : (p 2).val = (q 2).val) : y p = y q :=
  congrArg y (funext fun a => Fin.ext (by match a with | ⟨0, _⟩ => exact h0 | ⟨1, _⟩ => exact h1 | ⟨2, _⟩ => exact h2))

/-- The mean column at a token: zero plus the sum of the token's 258 entries, divided by 258. -/
private theorem mean_apply (x0 : (⟨S8x16384x2, .f32⟩ : BufTy).Contents (Elt Ideal)) (x1 : (⟨S8x16384x256, .f32⟩ : BufTy).Contents (Elt Ideal))
    (x2 : (⟨S8x16384, .i32⟩ : BufTy).Contents (Elt Ideal)) (j : S8x16384x1.Idx) :
    val_main_v35 (F := Ideal) x0 x1 x2 j =
      Cert.LnLin.mean (fun k => val_main_v31 (F := Ideal) x0 x1 x2 (idx_main_v32 (idx_main_v33 j) k)) := by
  rw [val_main_v35_apply, val_main_v33_apply, val_main_v32_apply, val_main_v34_apply, val_main_cst_5_apply,
    val_main_cst_4_apply]
  generalize val_main_v31 (F := Ideal) x0 x1 x2 = y
  simp only [Ideal.hostDivf_def, Ideal.ofBits_def, Ideal.ofBits_zero_f32, zero_add]
  rfl

/-- The variance column at a token: zero plus the sum of the squared deviations of the token's 258 entries from the
    token's mean, divided by 258. -/
private theorem var_apply (x0 : (⟨S8x16384x2, .f32⟩ : BufTy).Contents (Elt Ideal)) (x1 : (⟨S8x16384x256, .f32⟩ : BufTy).Contents (Elt Ideal))
    (x2 : (⟨S8x16384, .i32⟩ : BufTy).Contents (Elt Ideal)) (j : S8x16384x1.Idx) :
    val_main_v42 (F := Ideal) x0 x1 x2 j =
      Cert.LnLin.var (fun k => val_main_v31 (F := Ideal) x0 x1 x2 (idx_main_v39 (idx_main_v40 j) k)) := by
  rw [val_main_v42_apply, val_main_v40_apply, val_main_v39_apply, val_main_v41_apply, val_main_cst_7_apply,
    val_main_cst_6_apply]
  have hk : ∀ k : Fin 258, val_main_v38 (F := Ideal) x0 x1 x2 (idx_main_v39 (idx_main_v40 j) k) =
      (val_main_v31 (F := Ideal) x0 x1 x2 (idx_main_v39 (idx_main_v40 j) k) -
          Cert.LnLin.mean (fun k => val_main_v31 (F := Ideal) x0 x1 x2 (idx_main_v39 (idx_main_v40 j) k))) *
        (val_main_v31 (F := Ideal) x0 x1 x2 (idx_main_v39 (idx_main_v40 j) k) -
          Cert.LnLin.mean (fun k => val_main_v31 (F := Ideal) x0 x1 x2 (idx_main_v39 (idx_main_v40 j) k))) := by
    intro k
    rw [val_main_v38_apply, val_main_v37_apply, val_main_v36_apply, mean_apply]
    have e : (fun k' => val_main_v31 (F := Ideal) x0 x1 x2
          (idx_main_v32 (idx_main_v33 (idx_main_v36 (idx_main_v39 (idx_main_v40 j) k))) k')) =
        fun k' => val_main_v31 (F := Ideal) x0 x1 x2 (idx_main_v39 (idx_main_v40 j) k') :=
      funext fun k' => idx_congr rfl rfl rfl
    rw [e]
    rfl
  simp only [hk, Ideal.hostDivf_def, Ideal.ofBits_def, Ideal.ofBits_zero_f32, zero_add]
  rfl

/-- Entry `k` of the normalised token at (i 0, i 1): centred by the token's mean, scaled by the reciprocal square root
    of its variance plus the stabiliser, times weight `k`, plus bias `k`. -/
private theorem normed_apply (x0 : (⟨S8x16384x2, .f32⟩ : BufTy).Contents (Elt Ideal)) (x1 : (⟨S8x16384x256, .f32⟩ : BufTy).Contents (Elt Ideal))
    (x2 : (⟨S8x16384, .i32⟩ : BufTy).Contents (Elt Ideal)) (x3 x4 : (⟨S258, .f32⟩ : BufTy).Contents (Elt Ideal))
    (i : S8x16384x512.Idx) (k : Fin 258) :
    val_main_v55 (F := Ideal) x0 x1 x2 x3 x4 (lidx_main_v56 i k) =
      Cert.LnLin.normed (fun k => val_main_v31 (F := Ideal) x0 x1 x2 (lidx_main_v56 i k)) (fun k => x3 (ix1 k))
        (fun k => x4 (ix1 k)) k := by
  rw [val_main_v55_apply, val_main_v52_apply, val_main_v54_apply, val_main_v53_apply, val_main_v51_apply,
    val_main_v50_apply, val_main_v49_apply, val_main_v44_apply, val_main_v43_apply, val_main_v48_apply,
    val_main_v47_apply, val_main_v46_apply, val_main_v45_apply, val_main_cst_8_apply, mean_apply, var_apply]
  have em : (fun k' => val_main_v31 (F := Ideal) x0 x1 x2
        (idx_main_v32 (idx_main_v33 (idx_main_v43 (lidx_main_v56 i k))) k')) =
      fun k' => val_main_v31 (F := Ideal) x0 x1 x2 (lidx_main_v56 i k') :=
    funext fun k' => idx_congr rfl rfl rfl
  have ev : (fun k' => val_main_v31 (F := Ideal) x0 x1 x2
        (idx_main_v39 (idx_main_v40 (idx_main_v48 (lidx_main_v56 i k))) k')) =
      fun k' => val_main_v31 (F := Ideal) x0 x1 x2 (lidx_main_v56 i k') :=
    funext fun k' => idx_congr rfl rfl rfl
  have ew : idx_main_v50 (idx_main_v51 (lidx_main_v56 i k)) = ix1 k :=
    funext fun a => Fin.ext (by match a with | ⟨0, _⟩ => rfl)
  have eb : idx_main_v53 (idx_main_v54 (lidx_main_v56 i k)) = ix1 k :=
    funext fun a => Fin.ext (by match a with | ⟨0, _⟩ => rfl)
  rw [em, ev, ew, eb]
  generalize val_main_v31 (F := Ideal) x0 x1 x2 = y
  simp only [Ideal.addf_def, Ideal.subf_def, Ideal.mulf_def, Ideal.hostUnary_rsqrt_def, Ideal.ofBits_def]
  rfl

/-- Entry `i` of the reference's product: the token at (i 0, i 1) of the concatenated array, normalised with the weight
    and bias vectors, against row (i 2) of the coefficient matrix. -/
theorem ref_apply (x0 : (⟨S8x16384x2, .f32⟩ : BufTy).Contents (Elt Ideal)) (x1 : (⟨S8x16384x256, .f32⟩ : BufTy).Contents (Elt Ideal))
    (x2 : (⟨S8x16384, .i32⟩ : BufTy).Contents (Elt Ideal)) (x3 x4 : (⟨S258, .f32⟩ : BufTy).Contents (Elt Ideal))
    (x5 : (⟨S512x258, .f32⟩ : BufTy).Contents (Elt Ideal)) (i : S8x16384x512.Idx) :
    val_main_v56 (F := Ideal) x0 x1 x2 x3 x4 x5 i =
      Cert.LnLin.out (fun k => val_main_v31 (F := Ideal) x0 x1 x2 (lidx_main_v56 i k)) (fun k => x3 (ix1 k))
        (fun k => x4 (ix1 k)) (fun k => x5 (ridx_main_v56 i k)) := by
  rw [val_main_v56_apply]
  unfold Cert.LnLin.out
  exact Finset.sum_congr rfl fun k _ => congrArg (· * x5 (ridx_main_v56 i k)) (normed_apply x0 x1 x2 x3 x4 i k)

end Cert.ReferenceIdeal.Middle

end
-- ==== Proof.KernelArray.lean ====
/-
  The region's result array after the run: the reference's product of the launch arguments.

  The grid has 8 x 4 points; point (b, n) reads tokens 4096 n to 4096 n + 4095 of batch b (all 258 entries of each),
  the whole weight and bias rows and the whole coefficient matrix, and writes back the 4096 x 512 block of the result at
  the same batch and tokens. Entry (r, o) of what it writes is token r of its block, layer-normalised, against column o
  of the matrix; the token is token 4096 n + r of batch b of the joined array, the rows are the weight and bias vectors,
  and column o of the transposed matrix is row o of the coefficient matrix: so the entry is the reference's product at
  (b, 4096 n + r, o). The 32 blocks tile the array, so the array ends holding that product everywhere.
-/
import proofs.«101709_j26929444946666_1_alg».proof.Proof.Gen.KernelIdeal.Frame
import proofs.«101709_j26929444946666_1_alg».proof.Proof.KernelPayload
import proofs.«101709_j26929444946666_1_alg».proof.Proof.RefMiddle
import proofs.«101709_j26929444946666_1_alg».proof.Proof.KernelHead
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.ReferenceIdeal.ReadP

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The reference's product of the launch arguments: what the result array is shown to hold. -/
abbrev prod (c : Dev nD) : Buf (Elt Ideal) ((c : Thread nD τ).loc main_v35) :=
  val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- One output feature depends on its four rows entry by entry. -/
theorem out_congr {x x' w w' b b' l l' : Fin 258 → EReal} (hx : ∀ k, x k = x' k) (hw : ∀ k, w k = w' k)
    (hb : ∀ k, b k = b' k) (hl : ∀ k, l k = l' k) : Cert.LnLin.out x w b l = Cert.LnLin.out x' w' b' l' := by
  rw [funext hx, funext hw, funext hb, funext hl]

/-- The printed index maps, decided over the grid: the token window moves with the result window, the last axis is
    never split, the three parameter windows stay at the origin, and the result's block indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 3 :=
  (by decide +kernel : ∀ t : Fin grid0.N, _)

/-- Every (batch, token block) is some point's. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

set_option maxHeartbeats 2000000 in
/-- Entry k of token r of point `t`'s block is entry k of the token the result's entry (r, o) of that point belongs to:
    token 4096 n + r of batch b of the joined array. -/
theorem tok_eq (c : Dev nD) (t : Fin cfg0.N) (r : Fin 4096) (o : Fin 512) (k : Fin 258) :
    (iblk m c 0 t : Vec Ideal S1x4096x258 .f32) (ix3 (0 : Fin 1) r k)
      = val_main_v31 (F := Ideal) (m ((c : Thread nD τ).loc main_arg0)) (m ((c : Thread nD τ).loc main_arg1)) (m ((c : Thread nD τ).loc main_arg2)) (lidx_main_v56 (((cfg0.win 4).blk t).view.emb (ix3 (0 : Fin 1) r o)) k) := by
  obtain ⟨e00, e01, e02, e42, e10, e11, e20, e21, e30, e31, b0, b1⟩ := idx_facts t
  show V m c main_v31 (((cfg0.win 0).blk t).view.emb (ix3 (0 : Fin 1) r k)) = _
  rw [Cert.KernelIdeal.Head.V_v31 m c]
  refine congrArg _ (funext fun a => Fin.ext ?_)
  match a with
  | ⟨0, _⟩ => show win0_0.index t (0 : Fin 3) * 1 + 1 * 0 = win0_4.index t (0 : Fin 3) * 1 + 1 * 0; omega
  | ⟨1, _⟩ => show win0_0.index t (1 : Fin 3) * 4096 + 1 * r.val = win0_4.index t (1 : Fin 3) * 4096 + 1 * r.val; omega
  | ⟨2, _⟩ => show win0_0.index t (2 : Fin 3) * 258 + 1 * k.val = k.val; omega

set_option maxHeartbeats 2000000 in
/-- Entry (0, k) of the re-laid weight row is entry k of the weight vector. -/
theorem wrow_eq (c : Dev nD) (t : Fin cfg0.N) (k : Fin 258) :
    (iblk m c 1 t : Vec Ideal S1x258 .f32) (ix2 (0 : Fin 1) k) = ((m ((c : Thread nD τ).loc main_arg3)) : S258.Idx → EReal) (ix1 k) := by
  obtain ⟨e00, e01, e02, e42, e10, e11, e20, e21, e30, e31, b0, b1⟩ := idx_facts t
  show V m c main_v32 (((cfg0.win 1).blk t).view.emb (ix2 (0 : Fin 1) k)) = _
  rw [Cert.KernelIdeal.Head.V_v32 m c]
  refine shapeCast_apply _ _ _ _ ?_
  show (S258.rowMajor (ix1 k)).val = (S1x258.rowMajor (((cfg0.win 1).blk t).view.emb (ix2 (0 : Fin 1) k))).val
  rw [Shape.rowMajor_val_one, Shape.rowMajor_val_two]
  show k.val = (win0_1.index t (0 : Fin 2) * 1 + 1 * 0) * 258 + (win0_1.index t (1 : Fin 2) * 258 + 1 * k.val); omega

set_option maxHeartbeats 2000000 in
/-- Entry (0, k) of the re-laid bias row is entry k of the bias vector. -/
theorem brow_eq (c : Dev nD) (t : Fin cfg0.N) (k : Fin 258) :
    (iblk m c 2 t : Vec Ideal S1x258 .f32) (ix2 (0 : Fin 1) k) = ((m ((c : Thread nD τ).loc main_arg4)) : S258.Idx → EReal) (ix1 k) := by
  obtain ⟨e00, e01, e02, e42, e10, e11, e20, e21, e30, e31, b0, b1⟩ := idx_facts t
  show V m c main_v33 (((cfg0.win 2).blk t).view.emb (ix2 (0 : Fin 1) k)) = _
  rw [Cert.KernelIdeal.Head.V_v33 m c]
  refine shapeCast_apply _ _ _ _ ?_
  show (S258.rowMajor (ix1 k)).val = (S1x258.rowMajor (((cfg0.win 2).blk t).view.emb (ix2 (0 : Fin 1) k))).val
  rw [Shape.rowMajor_val_one, Shape.rowMajor_val_two]
  show k.val = (win0_2.index t (0 : Fin 2) * 1 + 1 * 0) * 258 + (win0_2.index t (1 : Fin 2) * 258 + 1 * k.val); omega

set_option maxHeartbeats 2000000 in
/-- Entry (k, o) of the transposed matrix is entry (o, k) of the coefficient matrix: the row the reference's product
    reads at the result's entry (r, o). -/
theorem mat_eq (c : Dev nD) (t : Fin cfg0.N) (r : Fin 4096) (o : Fin 512) (k : Fin 258) :
    (iblk m c 3 t : Vec Ideal S258x512 .f32) (ix2 k o)
      = ((m ((c : Thread nD τ).loc main_arg5)) : S512x258.Idx → EReal) (ridx_main_v56 (((cfg0.win 4).blk t).view.emb (ix3 (0 : Fin 1) r o)) k) := by
  obtain ⟨e00, e01, e02, e42, e10, e11, e20, e21, e30, e31, b0, b1⟩ := idx_facts t
  show V m c main_v34 (((cfg0.win 3).blk t).view.emb (ix2 k o)) = _
  rw [Cert.KernelIdeal.Head.V_v34 m c]
  refine transpose_apply _ _ _ _ _ fun b => ?_
  match b with
  | ⟨0, _⟩ => show k.val = win0_3.index t (0 : Fin 2) * 258 + 1 * k.val; omega
  | ⟨1, _⟩ => show win0_4.index t (2 : Fin 3) * 512 + 1 * o.val = win0_3.index t (1 : Fin 2) * 512 + 1 * o.val; omega

set_option maxHeartbeats 2000000 in
/-- What point `t` writes back is block `t` of the reference's product. -/
theorem flushed_eq (c : Dev nD) (t : Fin cfg0.N) :
    (dats m 0 c).flushed 4 t = ((cfg0.win 4).blk t).view.read (Elt Ideal) (prod m c) := by
  show (cfg0.win 4).cut (grid0.coords t) ((dats m 0 c).after 4 t) = _
  rw [after0_4]
  unfold out0_4
  rw [View.canon_unit_zero hz3]
  simp only [View.ld_unit_zero (S := S1x4096x258) hz3, View.ld_unit_zero (S := S1x258) hz2, View.ld_unit_zero (S := S258x512) hz2]
  refine funext fun (j : S1x4096x512.Idx) => ?_
  obtain ⟨p, r, o, rfl⟩ : ∃ (p : Fin 1) (r : Fin 4096) (o : Fin 512), j = ix3 p r o :=
    ⟨j 0, j 1, j 2, eq_ix3 (n0 := 1) (n1 := 4096) (n2 := 512) j⟩
  obtain rfl : p = 0 := Subsingleton.elim _ _
  show k0_pay1 (F := Ideal) (iblk m c 0 t) (iblk m c 1 t) (iblk m c 2 t) (iblk m c 3 t) (ix3 (0 : Fin 1) r o)
    = prod m c (((cfg0.win 4).blk t).view.emb (ix3 (0 : Fin 1) r o))
  refine (Cert.KernelIdeal.Body.pay_apply (iblk m c 0 t) (iblk m c 1 t) (iblk m c 2 t) (iblk m c 3 t) r o).trans ?_
  refine Eq.trans ?_ (Cert.ReferenceIdeal.Middle.ref_apply _ _ _ _ _ _ _).symm
  exact out_congr (fun k => tok_eq m c t r o k) (fun k => wrow_eq m c t k) (fun k => brow_eq m c t k)
    (fun k => mat_eq m c t r o k)

/-- An index of the result array is in point `t`'s block iff each coordinate is in the block's range on its axis. -/
theorem mem_blk (t : Fin cfg0.N) (i : S8x16384x512.Idx) :
    i ∈ ((cfg0.win 4).blk t).view.set ↔ ∀ a : Fin 3, win0_4.index t a * S1x4096x512.size a ≤ (i a).val ∧ (i a).val < win0_4.index t a * S1x4096x512.size a + S1x4096x512.size a := by
  show i ∈ ((View.whole main_v35).slice (win0_4.rect t)).set ↔ _
  rw [View.set_slice_whole, Rect.mem_set_unit]
  exact Iff.rfl

/-- Every index of the result array is in some point's block: the point of its batch and its block of 4096 tokens. -/
theorem covered (i : S8x16384x512.Idx) :
    ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 512 := (i 2).isLt
  obtain ⟨t, ht⟩ := idx_onto ⟨(i 0).val, hi0⟩ ⟨(i 1).val / 4096, by omega⟩
  have q0 : win0_4.index t (0 : Fin 3) = (i 0).val := congrFun ht 0
  have q1 : win0_4.index t (1 : Fin 3) = (i 1).val / 4096 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 512 ≤ (i 2).val ∧ (i 2).val < win0_4.index t (2 : Fin 3) * 512 + 512; omega

/-- The result array after the run is the reference's product of the launch arguments. -/
theorem final (c : Dev nD) : (dats m 0 c).arrAt 4 cfg0.N = prod m c :=
  (dats m 0 c).arrAt_eq_of_cover 4 (prod m c) (fun t _ => flushed_eq m c t) covered

end Cert.KernelIdeal.Arr

end
-- ==== Proof.lean ====
/-
  Cluster merging: the kernel's program against its reference, over the extended reals.

  Both programs normalise the token coordinates by their per-axis maximum, number each token's cluster across the batch,
  count the clusters' tokens and floor the counts at one, average the coordinates per cluster by a segment sum, subtract
  each token's cluster mean from its coordinates, and join the result to the token's 256 features. Both then layer-normalise
  every 258-entry token (mean and variance over 258, the stabiliser 9.99999974e-6, weight and bias) and project it to 512
  features with the coefficient matrix; both finally average the projected tokens per cluster, zero the empty clusters in
  the pooled features and in the mean positions, and return those two with the validity mask.

  The only difference is the middle stage. The reference normalises and projects the whole [8, 16384, 258] array with host
  operations and one `dot_general` against the [512, 258] matrix. The kernel's program transposes the matrix and runs a
  pallas call over a grid of 8 x 4 points, each normalising a block of 4096 tokens and multiplying it, narrowed to the short
  float format, by the narrowed transposed matrix into a zero accumulator. Over the extended reals the narrowing is the
  identity, a lane sum and a host sum are the same sum, and the product into a zero accumulator is the same sum over the
  contracted axis; the operations come in the same order on both sides, so entry by entry the two stages are one function
  (one token's normalisation against one feature's coefficients), and no law of the extended reals that could fail at an
  infinity is used: the precondition is never opened.

  So the region's result array ends holding the reference's product of the launch arguments (each grid point writes its
  block of it, and the 32 blocks tile the array), and the host lines after the region, being the reference's own last
  lines, carry it to the reference's results. The three frames: the kernel's two are the generated frame certificates,
  the reference's is its run with the results dropped. The idealization rewrote nothing, so it preserves trivially.
-/
import proofs.«101709_j26929444946666_1_alg».proof.Defs
import proofs.«101709_j26929444946666_1_alg».proof.Proof.Gen.Kernel
import proofs.«101709_j26929444946666_1_alg».proof.Proof.Gen.Kernel.Skeleton
import proofs.«101709_j26929444946666_1_alg».proof.Proof.Gen.Kernel.Launch
import proofs.«101709_j26929444946666_1_alg».proof.Proof.Gen.Kernel.Points
import proofs.«101709_j26929444946666_1_alg».proof.Proof.Gen.Kernel.Frame
import proofs.«101709_j26929444946666_1_alg».proof.Proof.Gen.KernelIdeal
import proofs.«101709_j26929444946666_1_alg».proof.Proof.Gen.KernelIdeal.Skeleton
import proofs.«101709_j26929444946666_1_alg».proof.Proof.Gen.KernelIdeal.Launch
import proofs.«101709_j26929444946666_1_alg».proof.Proof.Gen.KernelIdeal.Points
import proofs.«101709_j26929444946666_1_alg».proof.Proof.Gen.KernelIdeal.Frame
import proofs.«101709_j26929444946666_1_alg».proof.Proof.Gen.ReferenceIdeal
import proofs.«101709_j26929444946666_1_alg».proof.Proof.Gen.Pre_finite_inputs
import proofs.«101709_j26929444946666_1_alg».proof.Proof.RefRun
import proofs.«101709_j26929444946666_1_alg».proof.Proof.RefRead
import proofs.«101709_j26929444946666_1_alg».proof.Proof.RefRunHand
import proofs.«101709_j26929444946666_1_alg».proof.Proof.KernelHead
import proofs.«101709_j26929444946666_1_alg».proof.Proof.KernelTail
import proofs.«101709_j26929444946666_1_alg».proof.Proof.KernelArray
import Idealize.ShloMosaic.Adequacy
import Idealize.ShloMosaic.Init

noncomputable section

namespace Cert.Proof

open Idealize.ShloMosaic Idealize.ShloMosaic.TcCoe Idealize.SL.Sem

section KernelRun

open Cert.KernelIdeal Cert.KernelIdeal.Gen Cert.ReferenceIdeal.ReadP

/-- The idealized kernel's run, read: every weakly fair execution terminates with the three results at the reference's
    last stage functions of the launch arguments, and the arguments unchanged. The results are buffers the lines after
    the region write; the second goes through the region's result array. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52) = val_main_v73 (F := Ideal) (m ((c.tc : Thread nD τ).loc main_arg0)) (m ((c.tc : Thread nD τ).loc main_arg2))
      ∧ r.2.mem ((c.tc : Thread nD τ).loc main_v49) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53) = val_main_v74 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h c).2 main_v52 (Pipeline.mem_restRefs_of main_v52 (by decide) (by decide))).trans (Cert.KernelIdeal.Tail.tail_v52 m c),
      ((h c).2 main_v49 (Pipeline.mem_restRefs_of main_v49 (by decide) (by decide))).trans (Cert.KernelIdeal.Tail.tail_v49 m c (Cert.KernelIdeal.Arr.final m c)),
      ((h c).2 main_v53 (Pipeline.mem_restRefs_of main_v53 (by decide) (by decide))).trans (Cert.KernelIdeal.Tail.tail_v53 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end KernelRun

/-- The word-level kernel's program runs and keeps its arguments: the generated frame certificate. -/
theorem frame_k : Cert.frame_Kernel := fun m ρ _ => Cert.Kernel.Gen.frame m ρ

/-- The idealized kernel's program runs and keeps its arguments: the generated frame certificate. -/
theorem frame_ki : Cert.frame_KernelIdeal := fun m ρ _ => Cert.KernelIdeal.Gen.frame m ρ

/-- The reference runs and keeps its arguments: its run with the three results dropped. -/
theorem frame_ri : Cert.frame_ReferenceIdeal := fun m ρ _ =>
  (θ_run Cert.ReferenceIdeal.defs _ _).mono (fun _ h c => (h c).2.2.2) (Cert.ReferenceIdeal.Hand.run (F := Ideal) m ρ)

/-- The ideal pass rewrote no operation: nothing to preserve. -/
theorem preserves : Cert.preserves_Kernel_KernelIdeal := trivial

/-- From memories agreeing on the arguments both programs run and end with the same three results: the reference's last
    stage functions of the arguments, on the kernel's side by `kernel_run`, on the reference's by its own run. -/
theorem algebraic : Cert.algebraic_KernelIdeal_ReferenceIdeal := by
  intro m ρ m' ρ' _ hagree
  refine ⟨fun c => Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v74 (F := Ideal) (m ((c.tc : Thread Cert.KernelIdeal.nD Cert.KernelIdeal.τ).loc Cert.KernelIdeal.main_arg2)),
    kernel_run m ρ, ?_⟩
  refine (θ_run Cert.ReferenceIdeal.defs _ _).mono (fun _ h c => ?_) (Cert.ReferenceIdeal.Hand.run (F := Ideal) m' ρ')
  obtain ⟨h73, h70, h74, hkept⟩ := h c
  obtain ⟨e0, e1, e2, e3, e4, e5⟩ := hagree c
  exact ⟨h73.trans (by rw [e0, e2]), h70.trans (by rw [e0, e1, e2, e3, e4, e5]), h74.trans (by rw [e2]), hkept⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
